-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S_ : Shape := ⟨0, ![]⟩

abbrev nBuf : Space → Nat
  | .hbm => 24
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  inb_S1x1_S1x1_0_0 : ∀ a, (![0, 0] : Fin 2 → Nat) a + S1x1.size a ≤ S1x1.size a
  h_S1x1 : 0 < S1x1.numel
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  shapeCasts_S1024_S1x1024 : S1024.ShapeCasts S1x1024
  bitsLt_bf16_f32 : FTy.bits .bf16 < FTy.bits .f32
  transposes_S1024x1024_p1_0_S1024x1024 : S1024x1024.Transposes [1, 0] S1024x1024
  broadcasts_S1024x1_S1024x1024 : S1024x1.Broadcasts S1024x1024
  broadcasts_S1x1024_S1024x1024 : S1x1024.Broadcasts S1024x1024
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .f32 = 32 ∨ (Rect.block (s := S4096x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .f32 = 32 ∨ (Rect.block (s := S4096x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x4096, .f32⟩
  | .hbm, ⟨9, _⟩ => ⟨S4096x1, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S4096x1, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x4096, .f32⟩
  | .hbm, ⟨59, _⟩ => ⟨S4096x1, .f32⟩
  | .hbm, ⟨60, _⟩ => ⟨S1x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_14 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_15 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.KBody0.lean ====
import proofs.«169877_j27968827031704_1_alg».proof.Proof.Gen.Kernel.Launch
import proofs.«169877_j27968827031704_1_alg».proof.Proof.Gen.Kernel.Skeleton
import proofs.«169877_j27968827031704_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## Launch 0: the branch of the body, and the body run in its two cases

The body resets the one-element accumulator block at the grid's first point (both coordinates zero) and at
every point adds the tile's partial sum to it. -/

/-- The body's branch condition at grid coordinates i: both coordinates are zero. -/
abbrev reset0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem reset0_iff : ∀ t : Fin cfg0.N, reset0 (grid0.coords t) ↔ t.val = 0 :=
  (by decide +kernel : ∀ t : Fin grid0.N, reset0 (grid0.coords t) ↔ t.val = 0)

set_option maxHeartbeats 1000000 in
/-- The body at the first point: the accumulator block, whatever it held, ends with the pieces the two stores
    write (the zero block, then the tile's sum over the zero block read back). -/
noncomputable def runFirst0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset0 i) (x0 x1 : Vec F S1024x1024 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__rbf_sum_kernel i arg2 harg2 arg3 harg3 arg4 harg4) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at every later point: the accumulator block, holding xo, ends with the piece the one store writes
    (the tile's sum over xo). -/
noncomputable def runRest0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset0 i) (x0 x1 : Vec F S1024x1024 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__rbf_sum_kernel i arg2 harg2 arg3 harg3 arg4 harg4) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The staging memrefs at a point, as the pipeline passes them to the body -/

/-- One staging buffer of the output window, through which its contents are stated. -/
abbrev VO0 : View sig .tc .vmem S1x1 .f32 := (Memref.whole cc0_stg2_0 : Memref sig .tc .vmem S1x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.Kernel.Hand

end
-- ==== Proof.KRegion0.lean ====
import proofs.«169877_j27968827031704_1_alg».proof.Proof.KBody0
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the core's buffer contents when the launch is entered: a parameter, fixed later by the run of the whole program
variable (V : (c : Dev nD) → (b : Ref sig .tc) → Buf (Elt F) ((c : Thread nD τ).loc b))

/-! ## Launch 0: the windows' blocks -/

/-- Window w's block at point t, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    point has the block index of the point before), for any proof data that reads the array off V and whose body
    leaves the block in place. -/
theorem before_in0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before_in0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the accumulator block, case by case -/

/-- The first point's stores cover the one-element block. -/
theorem coverFirst0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset0 i) (x0 x1 : Vec F S1024x1024 .f32) (y : S1x1.Idx) :
    ∃ pc ∈ (runFirst0 c i arg2 harg2 arg3 harg3 arg4 harg4 hc x0 x1).1, y ∈ pc.1.set :=
  View.cover_of_tiledL (runFirst0 c i arg2 harg2 arg3 harg3 arg4 harg4 hc x0 x1).1 S1x1.size (by sl_kernel_rfl) y

/-- What the first point leaves in the accumulator block. -/
def outFirst0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset0 i) (x0 x1 : Vec F S1024x1024 .f32) : Vec F S1x1 .f32 :=
  VO0.read (Elt F) (VO0.writes (Elt F) VO0.junk (runFirst0 c i arg2 harg2 arg3 harg3 arg4 harg4 hc x0 x1).1)

/-- A later point's store covers the block. -/
theorem coverRest0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset0 i) (x0 x1 : Vec F S1024x1024 .f32) (xo : Vec F S1x1 .f32) (y : S1x1.Idx) :
    ∃ pc ∈ (runRest0 c i arg2 harg2 arg3 harg3 arg4 harg4 hc x0 x1 xo).1, y ∈ pc.1.set :=
  View.cover_of_tiledL (runRest0 c i arg2 harg2 arg3 harg3 arg4 harg4 hc x0 x1 xo).1 S1x1.size (by sl_kernel_rfl) y

/-- What a later point leaves in the accumulator block, over what it found there. -/
def outRest0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset0 i) (x0 x1 : Vec F S1024x1024 .f32) (xo : Vec F S1x1 .f32) : Vec F S1x1 .f32 :=
  VO0.read (Elt F) (VO0.writes (Elt F) VO0.junk (runRest0 c i arg2 harg2 arg3 harg3 arg4 harg4 hc x0 x1 xo).1)

/-! ## The accumulation -/

/-- What the accumulator block holds after the body at position n: the first point's result, then each later
    point's over what the point before left (the block is not written back in between). -/
def accAt0 (c : Dev nD) : (n : ℕ) → n < cfg0.N → Vec F S1x1 .f32
  | 0, hn => outFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((reset0_iff ⟨0, hn⟩).mpr rfl) (blk0 V c 0 ⟨0, hn⟩) (blk0 V c 1 ⟨0, hn⟩)
  | n + 1, hn =>
      outRest0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => Nat.succ_ne_zero n ((reset0_iff ⟨n + 1, hn⟩).mp h)) (blk0 V c 0 ⟨n + 1, hn⟩) (blk0 V c 1 ⟨n + 1, hn⟩) (accAt0 c n (Nat.lt_of_succ_lt hn))

theorem accAt0_first (c : Dev nD) (t : Fin cfg0.N) (h0 : t.val = 0) :
    accAt0 V c t.val t.isLt = outFirst0 c (grid0.coords t) (ms0_0 t) (hs0_0 t) (ms0_1 t) (hs0_1 t) (ms0_2 t) (hs0_2 t)
      ((reset0_iff t).mpr h0) (blk0 V c 0 t) (blk0 V c 1 t) := by
  obtain ⟨n, hn⟩ := t
  cases n with
  | zero => exact rfl
  | succ n => exact absurd h0 (Nat.succ_ne_zero n)

theorem accAt0_rest (c : Dev nD) (t : Fin cfg0.N) (h0 : ¬t.val = 0) :
    accAt0 V c t.val t.isLt = outRest0 c (grid0.coords t) (ms0_0 t) (hs0_0 t) (ms0_1 t) (hs0_1 t) (ms0_2 t) (hs0_2 t)
      (fun h => h0 ((reset0_iff t).mp h)) (blk0 V c 0 t) (blk0 V c 1 t)
      (accAt0 V c (t.val - 1) (Nat.lt_of_le_of_lt (Nat.sub_le _ _) t.isLt)) := by
  obtain ⟨n, hn⟩ := t
  cases n with
  | zero => exact absurd rfl h0
  | succ n => exact rfl

/-! ## The launch's proof data -/

/-- The proof data of launch 0 on core c: the arrays as the launch finds them; after the body at point t each
    input buffer at its block, the accumulator block at the running sum; the scoped rest and the generator
    register ride along untouched; nothing owed; the two input windows hold their array at the shares below. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => accAt0 V c t.val t.isLt
  Φ _ := Pipeline.ΦA spec0 c
  q w := match w with | ⟨0, _⟩ => fullShare.left | ⟨1, _⟩ => fullShare.right | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = blk0 V c 0 t :=
  before_in0_0_of V (dat0 V c) (A_eq0 V c 0) (after0_0 V c) t d
theorem before0_1 (c : Dev nD) (t : Fin cfg0.N) (d) : (dat0 V c).before 1 t d = blk0 V c 1 t :=
  before_in0_1_of V (dat0 V c) (A_eq0 V c 1) (after0_1 V c) t d
/-- At a later point the accumulator's buffer holds what the body left at the point before: the block is written
    back at the last point only. -/
theorem before0_2_rest (c : Dev nD) (t : Fin cfg0.N) (h0 : ¬t.val = 0) (d) :
    (dat0 V c).before 2 t d = accAt0 V c (t.val - 1) (Nat.lt_of_le_of_lt (Nat.sub_le _ _) t.isLt) := by
  have hN : t.val < 16 := lt_of_lt_of_eq t.isLt (show cfg0.N = 16 from N_0)
  rw [Dat.before_out_kept _ 2 rfl t h0 (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the input buffers hold their blocks; at the first point the accumulator block may hold
    anything, at a later one it holds the running sum; the run of the matching case applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [accAt0_first V c t h0]
    unfold outFirst0
    iintro ⟨HΦ, Ho, ⟨%d0, H0⟩, ⟨%d1, H1⟩, ⟨%d2, H2⟩⟩
    iapply ((runFirst0 c (grid0.coords t) _ _ _ _ _ _ ((reset0_iff t).mpr h0) (blk0 V c 0 t) (blk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst0 c _ _ _ _ _ _ _ _ _ _)
  · rw [accAt0_rest V c t h0]
    simp only [before0_2_rest V c t h0]
    unfold outRest0
    iintro ⟨HΦ, Ho, ⟨%d0, H0⟩, ⟨%d1, H1⟩, ⟨%d2, H2⟩⟩
    iapply ((runRest0 c (grid0.coords t) _ _ _ _ _ _ (fun h => h0 ((reset0_iff t).mp h)) (blk0 V c 0 t) (blk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverRest0 c _ _ _ _ _ _ _ _ _ _ _)

/-- The body obligation of launch 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
import proofs.«169877_j27968827031704_1_alg».proof.Proof.Gen.Kernel.Launch
import proofs.«169877_j27968827031704_1_alg».proof.Proof.Gen.Kernel.Skeleton
import proofs.«169877_j27968827031704_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## Launch 1: the branch of the body, and the body run in its two cases

The body resets the one-element accumulator block at the grid's first point (both coordinates zero) and at
every point adds the tile's partial sum to it. -/

/-- The body's branch condition at grid coordinates i: both coordinates are zero. -/
abbrev reset1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem reset1_iff : ∀ t : Fin cfg1.N, reset1 (grid1.coords t) ↔ t.val = 0 :=
  (by decide +kernel : ∀ t : Fin grid1.N, reset1 (grid1.coords t) ↔ t.val = 0)

set_option maxHeartbeats 1000000 in
/-- The body at the first point: the accumulator block, whatever it held, ends with the pieces the two stores
    write (the zero block, then the tile's sum over the zero block read back). -/
noncomputable def runFirst1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset1 i) (x0 x1 : Vec F S1024x1024 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__rbf_sum_kernel i arg2 harg2 arg3 harg3 arg4 harg4) K } := by
  refine ⟨?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at every later point: the accumulator block, holding xo, ends with the piece the one store writes
    (the tile's sum over xo). -/
noncomputable def runRest1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset1 i) (x0 x1 : Vec F S1024x1024 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__rbf_sum_kernel i arg2 harg2 arg3 harg3 arg4 harg4) K } := by
  refine ⟨?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The staging memrefs at a point, as the pipeline passes them to the body -/

/-- One staging buffer of the output window, through which its contents are stated. -/
abbrev VO1 : View sig .tc .vmem S1x1 .f32 := (Memref.whole cc1_stg2_0 : Memref sig .tc .vmem S1x1 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

end Cert.Kernel.Hand

end
-- ==== Proof.KRegion1.lean ====
import proofs.«169877_j27968827031704_1_alg».proof.Proof.KBody1
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the core's buffer contents when the launch is entered: a parameter, fixed later by the run of the whole program
variable (V : (c : Dev nD) → (b : Ref sig .tc) → Buf (Elt F) ((c : Thread nD τ).loc b))

/-! ## Launch 1: the windows' blocks -/

/-- Window w's block at point t, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    point has the block index of the point before), for any proof data that reads the array off V and whose body
    leaves the block in place. -/
theorem before_in1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before_in1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the accumulator block, case by case -/

/-- The first point's stores cover the one-element block. -/
theorem coverFirst1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset1 i) (x0 x1 : Vec F S1024x1024 .f32) (y : S1x1.Idx) :
    ∃ pc ∈ (runFirst1 c i arg2 harg2 arg3 harg3 arg4 harg4 hc x0 x1).1, y ∈ pc.1.set :=
  View.cover_of_tiledL (runFirst1 c i arg2 harg2 arg3 harg3 arg4 harg4 hc x0 x1).1 S1x1.size (by sl_kernel_rfl) y

/-- What the first point leaves in the accumulator block. -/
def outFirst1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset1 i) (x0 x1 : Vec F S1024x1024 .f32) : Vec F S1x1 .f32 :=
  VO1.read (Elt F) (VO1.writes (Elt F) VO1.junk (runFirst1 c i arg2 harg2 arg3 harg3 arg4 harg4 hc x0 x1).1)

/-- A later point's store covers the block. -/
theorem coverRest1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset1 i) (x0 x1 : Vec F S1024x1024 .f32) (xo : Vec F S1x1 .f32) (y : S1x1.Idx) :
    ∃ pc ∈ (runRest1 c i arg2 harg2 arg3 harg3 arg4 harg4 hc x0 x1 xo).1, y ∈ pc.1.set :=
  View.cover_of_tiledL (runRest1 c i arg2 harg2 arg3 harg3 arg4 harg4 hc x0 x1 xo).1 S1x1.size (by sl_kernel_rfl) y

/-- What a later point leaves in the accumulator block, over what it found there. -/
def outRest1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset1 i) (x0 x1 : Vec F S1024x1024 .f32) (xo : Vec F S1x1 .f32) : Vec F S1x1 .f32 :=
  VO1.read (Elt F) (VO1.writes (Elt F) VO1.junk (runRest1 c i arg2 harg2 arg3 harg3 arg4 harg4 hc x0 x1 xo).1)

/-! ## The accumulation -/

/-- What the accumulator block holds after the body at position n: the first point's result, then each later
    point's over what the point before left (the block is not written back in between). -/
def accAt1 (c : Dev nD) : (n : ℕ) → n < cfg1.N → Vec F S1x1 .f32
  | 0, hn => outFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((reset1_iff ⟨0, hn⟩).mpr rfl) (blk1 V c 0 ⟨0, hn⟩) (blk1 V c 1 ⟨0, hn⟩)
  | n + 1, hn =>
      outRest1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => Nat.succ_ne_zero n ((reset1_iff ⟨n + 1, hn⟩).mp h)) (blk1 V c 0 ⟨n + 1, hn⟩) (blk1 V c 1 ⟨n + 1, hn⟩) (accAt1 c n (Nat.lt_of_succ_lt hn))

theorem accAt1_first (c : Dev nD) (t : Fin cfg1.N) (h0 : t.val = 0) :
    accAt1 V c t.val t.isLt = outFirst1 c (grid1.coords t) (ms1_0 t) (hs1_0 t) (ms1_1 t) (hs1_1 t) (ms1_2 t) (hs1_2 t)
      ((reset1_iff t).mpr h0) (blk1 V c 0 t) (blk1 V c 1 t) := by
  obtain ⟨n, hn⟩ := t
  cases n with
  | zero => exact rfl
  | succ n => exact absurd h0 (Nat.succ_ne_zero n)

theorem accAt1_rest (c : Dev nD) (t : Fin cfg1.N) (h0 : ¬t.val = 0) :
    accAt1 V c t.val t.isLt = outRest1 c (grid1.coords t) (ms1_0 t) (hs1_0 t) (ms1_1 t) (hs1_1 t) (ms1_2 t) (hs1_2 t)
      (fun h => h0 ((reset1_iff t).mp h)) (blk1 V c 0 t) (blk1 V c 1 t)
      (accAt1 V c (t.val - 1) (Nat.lt_of_le_of_lt (Nat.sub_le _ _) t.isLt)) := by
  obtain ⟨n, hn⟩ := t
  cases n with
  | zero => exact absurd rfl h0
  | succ n => exact rfl

/-! ## The launch's proof data -/

/-- The proof data of launch 1 on core c: the arrays as the launch finds them; after the body at point t each
    input buffer at its block, the accumulator block at the running sum; the scoped rest and the generator
    register ride along untouched; nothing owed; the two input windows hold their array at the shares below. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => accAt1 V c t.val t.isLt
  Φ _ := Pipeline.ΦA spec1 c
  q w := match w with | ⟨0, _⟩ => fullShare.left | ⟨1, _⟩ => fullShare.right | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = blk1 V c 0 t :=
  before_in1_0_of V (dat1 V c) (A_eq1 V c 0) (after1_0 V c) t d
theorem before1_1 (c : Dev nD) (t : Fin cfg1.N) (d) : (dat1 V c).before 1 t d = blk1 V c 1 t :=
  before_in1_1_of V (dat1 V c) (A_eq1 V c 1) (after1_1 V c) t d
/-- At a later point the accumulator's buffer holds what the body left at the point before: the block is written
    back at the last point only. -/
theorem before1_2_rest (c : Dev nD) (t : Fin cfg1.N) (h0 : ¬t.val = 0) (d) :
    (dat1 V c).before 2 t d = accAt1 V c (t.val - 1) (Nat.lt_of_le_of_lt (Nat.sub_le _ _) t.isLt) := by
  have hN : t.val < 16 := lt_of_lt_of_eq t.isLt (show cfg1.N = 16 from N_1)
  rw [Dat.before_out_kept _ 2 rfl t h0 (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the input buffers hold their blocks; at the first point the accumulator block may hold
    anything, at a later one it holds the running sum; the run of the matching case applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [accAt1_first V c t h0]
    unfold outFirst1
    iintro ⟨HΦ, Ho, ⟨%d0, H0⟩, ⟨%d1, H1⟩, ⟨%d2, H2⟩⟩
    iapply ((runFirst1 c (grid1.coords t) _ _ _ _ _ _ ((reset1_iff t).mpr h0) (blk1 V c 0 t) (blk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst1 c _ _ _ _ _ _ _ _ _ _)
  · rw [accAt1_rest V c t h0]
    simp only [before1_2_rest V c t h0]
    unfold outRest1
    iintro ⟨HΦ, Ho, ⟨%d0, H0⟩, ⟨%d1, H1⟩, ⟨%d2, H2⟩⟩
    iapply ((runRest1 c (grid1.coords t) _ _ _ _ _ _ (fun h => h0 ((reset1_iff t).mp h)) (blk1 V c 0 t) (blk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverRest1 c _ _ _ _ _ _ _ _ _ _ _)

/-- The body obligation of launch 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
import proofs.«169877_j27968827031704_1_alg».proof.Proof.Gen.Kernel.Launch
import proofs.«169877_j27968827031704_1_alg».proof.Proof.Gen.Kernel.Skeleton
import proofs.«169877_j27968827031704_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## Launch 2: the branch of the body, and the body run in its two cases

The body resets the one-element accumulator block at the grid's first point (both coordinates zero) and at
every point adds the tile's partial sum to it. -/

/-- The body's branch condition at grid coordinates i: both coordinates are zero. -/
abbrev reset2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem reset2_iff : ∀ t : Fin cfg2.N, reset2 (grid2.coords t) ↔ t.val = 0 :=
  (by decide +kernel : ∀ t : Fin grid2.N, reset2 (grid2.coords t) ↔ t.val = 0)

set_option maxHeartbeats 1000000 in
/-- The body at the first point: the accumulator block, whatever it held, ends with the pieces the two stores
    write (the zero block, then the tile's sum over the zero block read back). -/
noncomputable def runFirst2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset2 i) (x0 x1 : Vec F S1024x1024 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc2__rbf_sum_kernel i arg2 harg2 arg3 harg3 arg4 harg4) K } := by
  refine ⟨?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at every later point: the accumulator block, holding xo, ends with the piece the one store writes
    (the tile's sum over xo). -/
noncomputable def runRest2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset2 i) (x0 x1 : Vec F S1024x1024 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc2__rbf_sum_kernel i arg2 harg2 arg3 harg3 arg4 harg4) K } := by
  refine ⟨?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The staging memrefs at a point, as the pipeline passes them to the body -/

/-- One staging buffer of the output window, through which its contents are stated. -/
abbrev VO2 : View sig .tc .vmem S1x1 .f32 := (Memref.whole cc2_stg2_0 : Memref sig .tc .vmem S1x1 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

end Cert.Kernel.Hand

end
-- ==== Proof.KRegion2.lean ====
import proofs.«169877_j27968827031704_1_alg».proof.Proof.KBody2
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the core's buffer contents when the launch is entered: a parameter, fixed later by the run of the whole program
variable (V : (c : Dev nD) → (b : Ref sig .tc) → Buf (Elt F) ((c : Thread nD τ).loc b))

/-! ## Launch 2: the windows' blocks -/

/-- Window w's block at point t, read off its array as the launch finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    point has the block index of the point before), for any proof data that reads the array off V and whose body
    leaves the block in place. -/
theorem before_in2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before_in2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the accumulator block, case by case -/

/-- The first point's stores cover the one-element block. -/
theorem coverFirst2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset2 i) (x0 x1 : Vec F S1024x1024 .f32) (y : S1x1.Idx) :
    ∃ pc ∈ (runFirst2 c i arg2 harg2 arg3 harg3 arg4 harg4 hc x0 x1).1, y ∈ pc.1.set :=
  View.cover_of_tiledL (runFirst2 c i arg2 harg2 arg3 harg3 arg4 harg4 hc x0 x1).1 S1x1.size (by sl_kernel_rfl) y

/-- What the first point leaves in the accumulator block. -/
def outFirst2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset2 i) (x0 x1 : Vec F S1024x1024 .f32) : Vec F S1x1 .f32 :=
  VO2.read (Elt F) (VO2.writes (Elt F) VO2.junk (runFirst2 c i arg2 harg2 arg3 harg3 arg4 harg4 hc x0 x1).1)

/-- A later point's store covers the block. -/
theorem coverRest2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset2 i) (x0 x1 : Vec F S1024x1024 .f32) (xo : Vec F S1x1 .f32) (y : S1x1.Idx) :
    ∃ pc ∈ (runRest2 c i arg2 harg2 arg3 harg3 arg4 harg4 hc x0 x1 xo).1, y ∈ pc.1.set :=
  View.cover_of_tiledL (runRest2 c i arg2 harg2 arg3 harg3 arg4 harg4 hc x0 x1 xo).1 S1x1.size (by sl_kernel_rfl) y

/-- What a later point leaves in the accumulator block, over what it found there. -/
def outRest2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset2 i) (x0 x1 : Vec F S1024x1024 .f32) (xo : Vec F S1x1 .f32) : Vec F S1x1 .f32 :=
  VO2.read (Elt F) (VO2.writes (Elt F) VO2.junk (runRest2 c i arg2 harg2 arg3 harg3 arg4 harg4 hc x0 x1 xo).1)

/-! ## The accumulation -/

/-- What the accumulator block holds after the body at position n: the first point's result, then each later
    point's over what the point before left (the block is not written back in between). -/
def accAt2 (c : Dev nD) : (n : ℕ) → n < cfg2.N → Vec F S1x1 .f32
  | 0, hn => outFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩)
      ((reset2_iff ⟨0, hn⟩).mpr rfl) (blk2 V c 0 ⟨0, hn⟩) (blk2 V c 1 ⟨0, hn⟩)
  | n + 1, hn =>
      outRest2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
        (fun h => Nat.succ_ne_zero n ((reset2_iff ⟨n + 1, hn⟩).mp h)) (blk2 V c 0 ⟨n + 1, hn⟩) (blk2 V c 1 ⟨n + 1, hn⟩) (accAt2 c n (Nat.lt_of_succ_lt hn))

theorem accAt2_first (c : Dev nD) (t : Fin cfg2.N) (h0 : t.val = 0) :
    accAt2 V c t.val t.isLt = outFirst2 c (grid2.coords t) (ms2_0 t) (hs2_0 t) (ms2_1 t) (hs2_1 t) (ms2_2 t) (hs2_2 t)
      ((reset2_iff t).mpr h0) (blk2 V c 0 t) (blk2 V c 1 t) := by
  obtain ⟨n, hn⟩ := t
  cases n with
  | zero => exact rfl
  | succ n => exact absurd h0 (Nat.succ_ne_zero n)

theorem accAt2_rest (c : Dev nD) (t : Fin cfg2.N) (h0 : ¬t.val = 0) :
    accAt2 V c t.val t.isLt = outRest2 c (grid2.coords t) (ms2_0 t) (hs2_0 t) (ms2_1 t) (hs2_1 t) (ms2_2 t) (hs2_2 t)
      (fun h => h0 ((reset2_iff t).mp h)) (blk2 V c 0 t) (blk2 V c 1 t)
      (accAt2 V c (t.val - 1) (Nat.lt_of_le_of_lt (Nat.sub_le _ _) t.isLt)) := by
  obtain ⟨n, hn⟩ := t
  cases n with
  | zero => exact absurd rfl h0
  | succ n => exact rfl

/-! ## The launch's proof data -/

/-- The proof data of launch 2 on core c: the arrays as the launch finds them; after the body at point t each
    input buffer at its block, the accumulator block at the running sum; the scoped rest and the generator
    register ride along untouched; nothing owed; the two input windows hold their array at the shares below. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => accAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = accAt2 V c t.val t.isLt := by dsimp only [dat2]

theorem before2_0 (c : Dev nD) (t : Fin cfg2.N) (d) : (dat2 V c).before 0 t d = blk2 V c 0 t :=
  before_in2_0_of V (dat2 V c) (A_eq2 V c 0) (after2_0 V c) t d
theorem before2_1 (c : Dev nD) (t : Fin cfg2.N) (d) : (dat2 V c).before 1 t d = blk2 V c 1 t :=
  before_in2_1_of V (dat2 V c) (A_eq2 V c 1) (after2_1 V c) t d
/-- At a later point the accumulator's buffer holds what the body left at the point before: the block is written
    back at the last point only. -/
theorem before2_2_rest (c : Dev nD) (t : Fin cfg2.N) (h0 : ¬t.val = 0) (d) :
    (dat2 V c).before 2 t d = accAt2 V c (t.val - 1) (Nat.lt_of_le_of_lt (Nat.sub_le _ _) t.isLt) := by
  have hN : t.val < 16 := lt_of_lt_of_eq t.isLt (show cfg2.N = 16 from N_2)
  rw [Dat.before_out_kept _ 2 rfl t h0 (Bool.eq_false_iff.mpr fun h => by have := (flush2_2 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the input buffers hold their blocks; at the first point the accumulator block may hold
    anything, at a later one it holds the running sum; the run of the matching case applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  by_cases h0 : t.val = 0
  · rw [accAt2_first V c t h0]
    unfold outFirst2
    iintro ⟨HΦ, Ho, ⟨%d0, H0⟩, ⟨%d1, H1⟩, ⟨%d2, H2⟩⟩
    iapply ((runFirst2 c (grid2.coords t) _ _ _ _ _ _ ((reset2_iff t).mpr h0) (blk2 V c 0 t) (blk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst2 c _ _ _ _ _ _ _ _ _ _)
  · rw [accAt2_rest V c t h0]
    simp only [before2_2_rest V c t h0]
    unfold outRest2
    iintro ⟨HΦ, Ho, ⟨%d0, H0⟩, ⟨%d1, H1⟩, ⟨%d2, H2⟩⟩
    iapply ((runRest2 c (grid2.coords t) _ _ _ _ _ _ (fun h => h0 ((reset2_iff t).mp h)) (blk2 V c 0 t) (blk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverRest2 c _ _ _ _ _ _ _ _ _ _ _)

/-- The body obligation of launch 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KShare0.lean ====
import proofs.«169877_j27968827031704_1_alg».proof.Proof.KRegion0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## Launch 0: the arrays behind the windows, at entry and at exit

Both input windows read one array; the output window writes a second. At entry the input array's full share is
halved between the two input windows; at exit the halves are joined again. -/

/-- The buffers behind the windows' arrays. -/
theorem arrImage0 : Finset.univ.image (Pipeline.arrRef (cfgs (0 : Fin 3)).spec) = {main_arg0, main_v0} := by decide

theorem share0_0 (V : (c : Dev nD) → (b : Ref sig .tc) → Buf (Elt F) ((c : Thread nD τ).loc b)) (c : Dev nD) :
    (dat0 V c).share 0 = fullShare.left := rfl
theorem share0_1 (V : (c : Dev nD) → (b : Ref sig .tc) → Buf (Elt F) ((c : Thread nD τ).loc b)) (c : Dev nD) :
    (dat0 V c).share 1 = fullShare.right := rfl
theorem share0_2 (V : (c : Dev nD) → (b : Ref sig .tc) → Buf (Elt F) ((c : Thread nD τ).loc b)) (c : Dev nD) :
    (dat0 V c).share 2 = fullShare := rfl

/-- The windowed arrays of launch 0, written out: the input array at its two half shares, the output array whole. -/
theorem arrays0_eq (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  have h : ((dat0 V c).arrays G : sProp 𝕄)
      = bigSep Finset.univ fun w : Fin cfg0.W => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0, share0_0, share0_1, share0_2]

/-- The distinct buffers behind the arrays, written out. -/
theorem arrBufs0_eq (c : Dev nD) (W : (b : Ref sig .tc) → Buf (Elt F) ((c : Thread nD τ).loc b)) :
    (Pipeline.arrBufs (Ix := Unit) (Name := ℕ) (U := UR sig nD τ) (Lvl := ℕ) (cfgs (0 : Fin 3)).spec c W : sProp 𝕄)
      = iprop((((c : Thread nD τ).loc main_arg0) ↦{fullShare} W main_arg0) ∗ (((c : Thread nD τ).loc main_v0) ↦{fullShare} W main_v0)) := by
  unfold Pipeline.arrBufs
  rw [arrImage0, bigSep_insert (by decide), bigSep_singleton]
  rfl

/-- ENTRY: the core's unscoped buffers at V are the launch's arrays at their entry contents and the rest. -/
theorem entry0 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ (cfgs := cfgs) (p := (0 : Fin 3)) winFacts₀0.arr_unscoped c (V c), arrays0_eq]
  refine sep_mono ?_ .rfl
  rw [arrBufs0_eq]
  iintro ⟨Ha, Ho⟩
  ihave Ha := (pointsTo_share (PosShare.mem_left_op_right fullShare)).1 $$ Ha
  icases Ha with ⟨Ha₁, Ha₂⟩
  isplitl [Ha₁]; · iexact Ha₁
  isplitl [Ha₂]; · iexact Ha₂
  iexact Ho

/-- EXIT: the launch's arrays at contents G and the rest at V are the core's unscoped buffers at any valuation
    that has the arrays at G and agrees with V elsewhere. -/
theorem exit0 (V V' : (c : Dev nD) → (b : Ref sig .tc) → Buf (Elt F) ((c : Thread nD τ).loc b)) (c : Dev nD)
    (G : (w : Fin cfg0.W) → Buf (Elt F) ((cfg0.win w).arr.view.loc (c : Thread nD τ)))
    (hG0 : G 0 = V' c main_arg0) (hG1 : G 1 = V' c main_arg0) (hG2 : G 2 = V' c main_v0)
    (hrest : ∀ b, b ∉ Finset.univ.image (Pipeline.arrRef spec0) → V' c b = V c b) :
    iprop((dat0 V c).arrays G ∗ Pipeline.unscopedRest spec0 c (V c))
      ⊢ (unscopedBufs (Ix := Unit) (Name := ℕ) (U := UR sig nD τ) (Lvl := ℕ) c (V' c) : sProp 𝕄) := by
  rw [Pipeline.unscopedBufs_split₀ (cfgs := cfgs) (p := (0 : Fin 3)) winFacts₀0.arr_unscoped c (V' c), arrays0_eq, hG0, hG1, hG2]
  refine sep_mono ?_ (Entails.of_eq ?_)
  · rw [arrBufs0_eq]
    iintro ⟨Ha₁, Ha₂, Ho⟩
    isplitl [Ha₁ Ha₂]
    · iapply (pointsTo_share (PosShare.mem_left_op_right fullShare)).2
      isplitl [Ha₁] <;> iassumption
    iexact Ho
  · unfold Pipeline.unscopedRest
    exact bigSep_congr fun b hb => by rw [hrest b (Finset.mem_sdiff.mp hb).2]

end Cert.Kernel.Hand

end
-- ==== Proof.KShare1.lean ====
import proofs.«169877_j27968827031704_1_alg».proof.Proof.KRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## Launch 1: the arrays behind the windows, at entry and at exit

Both input windows read one array; the output window writes a second. At entry the input array's full share is
halved between the two input windows; at exit the halves are joined again. -/

/-- The buffers behind the windows' arrays. -/
theorem arrImage1 : Finset.univ.image (Pipeline.arrRef (cfgs (1 : Fin 3)).spec) = {main_arg1, main_v4} := by decide

theorem share1_0 (V : (c : Dev nD) → (b : Ref sig .tc) → Buf (Elt F) ((c : Thread nD τ).loc b)) (c : Dev nD) :
    (dat1 V c).share 0 = fullShare.left := rfl
theorem share1_1 (V : (c : Dev nD) → (b : Ref sig .tc) → Buf (Elt F) ((c : Thread nD τ).loc b)) (c : Dev nD) :
    (dat1 V c).share 1 = fullShare.right := rfl
theorem share1_2 (V : (c : Dev nD) → (b : Ref sig .tc) → Buf (Elt F) ((c : Thread nD τ).loc b)) (c : Dev nD) :
    (dat1 V c).share 2 = fullShare := rfl

/-- The windowed arrays of launch 1, written out: the input array at its two half shares, the output array whole. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg1) ↦{fullShare.left} G 0) ∗ (((c : Thread nD τ).loc main_arg1) ↦{fullShare.right} G 1)
          ∗ (((c : Thread nD τ).loc main_v4) ↦{fullShare} G 2)) := by
  have h : ((dat1 V c).arrays G : sProp 𝕄)
      = bigSep Finset.univ fun w : Fin cfg1.W => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1, share1_0, share1_1, share1_2]

/-- The distinct buffers behind the arrays, written out. -/
theorem arrBufs1_eq (c : Dev nD) (W : (b : Ref sig .tc) → Buf (Elt F) ((c : Thread nD τ).loc b)) :
    (Pipeline.arrBufs (Ix := Unit) (Name := ℕ) (U := UR sig nD τ) (Lvl := ℕ) (cfgs (1 : Fin 3)).spec c W : sProp 𝕄)
      = iprop((((c : Thread nD τ).loc main_arg1) ↦{fullShare} W main_arg1) ∗ (((c : Thread nD τ).loc main_v4) ↦{fullShare} W main_v4)) := by
  unfold Pipeline.arrBufs
  rw [arrImage1, bigSep_insert (by decide), bigSep_singleton]
  rfl

/-- ENTRY: the core's unscoped buffers at V are the launch's arrays at their entry contents and the rest. -/
theorem entry1 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ (cfgs := cfgs) (p := (1 : Fin 3)) winFacts₀1.arr_unscoped c (V c), arrays1_eq]
  refine sep_mono ?_ .rfl
  rw [arrBufs1_eq]
  iintro ⟨Ha, Ho⟩
  ihave Ha := (pointsTo_share (PosShare.mem_left_op_right fullShare)).1 $$ Ha
  icases Ha with ⟨Ha₁, Ha₂⟩
  isplitl [Ha₁]; · iexact Ha₁
  isplitl [Ha₂]; · iexact Ha₂
  iexact Ho

/-- EXIT: the launch's arrays at contents G and the rest at V are the core's unscoped buffers at any valuation
    that has the arrays at G and agrees with V elsewhere. -/
theorem exit1 (V V' : (c : Dev nD) → (b : Ref sig .tc) → Buf (Elt F) ((c : Thread nD τ).loc b)) (c : Dev nD)
    (G : (w : Fin cfg1.W) → Buf (Elt F) ((cfg1.win w).arr.view.loc (c : Thread nD τ)))
    (hG0 : G 0 = V' c main_arg1) (hG1 : G 1 = V' c main_arg1) (hG2 : G 2 = V' c main_v4)
    (hrest : ∀ b, b ∉ Finset.univ.image (Pipeline.arrRef spec1) → V' c b = V c b) :
    iprop((dat1 V c).arrays G ∗ Pipeline.unscopedRest spec1 c (V c))
      ⊢ (unscopedBufs (Ix := Unit) (Name := ℕ) (U := UR sig nD τ) (Lvl := ℕ) c (V' c) : sProp 𝕄) := by
  rw [Pipeline.unscopedBufs_split₀ (cfgs := cfgs) (p := (1 : Fin 3)) winFacts₀1.arr_unscoped c (V' c), arrays1_eq, hG0, hG1, hG2]
  refine sep_mono ?_ (Entails.of_eq ?_)
  · rw [arrBufs1_eq]
    iintro ⟨Ha₁, Ha₂, Ho⟩
    isplitl [Ha₁ Ha₂]
    · iapply (pointsTo_share (PosShare.mem_left_op_right fullShare)).2
      isplitl [Ha₁] <;> iassumption
    iexact Ho
  · unfold Pipeline.unscopedRest
    exact bigSep_congr fun b hb => by rw [hrest b (Finset.mem_sdiff.mp hb).2]

end Cert.Kernel.Hand

end
-- ==== Proof.KSegs.lean ====
import proofs.«169877_j27968827031704_1_alg».proof.Proof.KRegion0
import proofs.«169877_j27968827031704_1_alg».proof.Proof.KRegion1
import proofs.«169877_j27968827031704_1_alg».proof.Proof.KRegion2
import proofs.«169877_j27968827031704_1_alg».proof.Proof.KShare0
import proofs.«169877_j27968827031704_1_alg».proof.Proof.KShare1
import proofs.«169877_j27968827031704_1_alg».proof.Proof.Gen.Kernel.Regions
import Idealize.ShloMosaic.Lib.Pipeline.RegionsLoop
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! # The whole run: three launches among stretches of host operations

The unscoped buffers' contents are followed through the program: the launch contents, what launch 0 leaves in its
output array, the host operations after it, and so on. Each launch's proof data is taken at the contents it is
entered with. -/

/-! ## The contents between the items -/

/-- Launch 0 is entered with the launch contents. -/
abbrev Vin0 (c : Dev nD) (b : Ref sig .tc) : Buf (Elt F) ((c : Thread nD τ).loc b) := V0 m c b
/-- What launch 0 leaves in its output array: the last write-back's block. -/
def res0 (c : Dev nD) : Buf (Elt F) ((c : Thread nD τ).loc main_v0) := (dat0 (Vin0 m) c).arrAt 2 cfg0.N
/-- The launches' results so far: launch 0's. -/
def outsA : Outs (F := F) := fun J r c => match J with
  | 1 => Function.update (V0 m c) main_v0 (res0 m c) r
  | _ => V0 m c r
/-- Launch 1 is entered with the contents after the first stretch of host operations. -/
abbrev Vin1 (c : Dev nD) (b : Ref sig .tc) : Buf (Elt F) ((c : Thread nD τ).loc b) := V2 m (outsA m) c b
def res1 (c : Dev nD) : Buf (Elt F) ((c : Thread nD τ).loc main_v4) := (dat1 (Vin1 m) c).arrAt 2 cfg1.N
/-- The launches' results so far: launch 0's and launch 1's. -/
def outsB : Outs (F := F) := fun J r c => match J with
  | 1 => Function.update (V0 m c) main_v0 (res0 m c) r
  | 3 => Function.update (V0 m c) main_v4 (res1 m c) r
  | _ => V0 m c r
/-- Launch 2 is entered with the contents after the second stretch of host operations. -/
abbrev Vin2 (c : Dev nD) (b : Ref sig .tc) : Buf (Elt F) ((c : Thread nD τ).loc b) := V4 m (outsB m) c b
def res2 (c : Dev nD) : Buf (Elt F) ((c : Thread nD τ).loc main_v8) := (dat2 (Vin2 m) c).arrAt 2 cfg2.N
/-- All three launches' results. -/
def outs : Outs (F := F) := fun J r c => match J with
  | 1 => Function.update (V0 m c) main_v0 (res0 m c) r
  | 3 => Function.update (V0 m c) main_v4 (res1 m c) r
  | 5 => Function.update (V0 m c) main_v8 (res2 m c) r
  | _ => V0 m c r

theorem outs_1 (c : Dev nD) : outs m 1 main_v0 c = res0 m c := by
  show Function.update (V0 m c) main_v0 (res0 m c) main_v0 = _
  exact Function.update_self ..
theorem outs_3 (c : Dev nD) : outs m 3 main_v4 c = res1 m c := by
  show Function.update (V0 m c) main_v4 (res1 m c) main_v4 = _
  exact Function.update_self ..
theorem outs_5 (c : Dev nD) : outs m 5 main_v8 c = res2 m c := by
  show Function.update (V0 m c) main_v8 (res2 m c) main_v8 = _
  exact Function.update_self ..

/-- The contents before launch 1 read only launch 0's result, -/
theorem V2_outs (c : Dev nD) : V2 m (outs m) c = V2 m (outsA m) c := rfl
/-- and those before launch 2 only the first two. -/
theorem V4_outs (c : Dev nD) : V4 m (outs m) c = V4 m (outsB m) c := rfl

/-! ## The proof data of all three launches -/

def pdats : (p : Fin 3) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c

/-- No core owes another anything: no level is assigned. -/
abbrev Lv : GSem nD τ sig → Finset Unit := fun _ => ∅
abbrev lvl : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)

/-! ## What a launch's exit contents are, array by array -/

theorem V1_arr (c : Dev nD) : V1 m (outs m) c main_arg0 = V0 m c main_arg0 := V1_of m (outs m) c main_arg0 (by decide)
theorem V1_out (c : Dev nD) : V1 m (outs m) c main_v0 = res0 m c := by
  show Function.update (V0 m c) main_v0 (outs m 1 main_v0 c) main_v0 = _
  rw [Function.update_self, outs_1]
theorem V3_arr (c : Dev nD) : V3 m (outs m) c main_arg1 = V2 m (outsA m) c main_arg1 := V3_of m (outs m) c main_arg1 (by decide)
theorem V3_out (c : Dev nD) : V3 m (outs m) c main_v4 = res1 m c := by
  show Function.update (V2 m (outs m) c) main_v4 (outs m 3 main_v4 c) main_v4 = _
  rw [Function.update_self, outs_3]
theorem V5_arr0 (c : Dev nD) : V5 m (outs m) c main_arg0 = V4 m (outsB m) c main_arg0 := V5_of m (outs m) c main_arg0 (by decide)
theorem V5_arr1 (c : Dev nD) : V5 m (outs m) c main_arg1 = V4 m (outsB m) c main_arg1 := V5_of m (outs m) c main_arg1 (by decide)
theorem V5_out (c : Dev nD) : V5 m (outs m) c main_v8 = res2 m c := by
  show Function.update (V4 m (outs m) c) main_v8 (outs m 5 main_v8 c) main_v8 = _
  rw [Function.update_self, outs_5]

/-- Off a launch's arrays the contents after it are the contents before it. -/
theorem V1_rest (c : Dev nD) (b : Ref sig .tc) (hb : b ∉ Finset.univ.image (Pipeline.arrRef spec0)) : V1 m (outs m) c b = V0 m c b :=
  V1_of m (outs m) c b fun h => hb (by rw [List.mem_singleton.mp h]; decide)
theorem V3_rest (c : Dev nD) (b : Ref sig .tc) (hb : b ∉ Finset.univ.image (Pipeline.arrRef spec1)) : V3 m (outs m) c b = V2 m (outsA m) c b :=
  V3_of m (outs m) c b fun h => hb (by rw [List.mem_singleton.mp h]; decide)
theorem V5_rest (c : Dev nD) (b : Ref sig .tc) (hb : b ∉ Finset.univ.image (Pipeline.arrRef spec2)) : V5 m (outs m) c b = V4 m (outsB m) c b :=
  V5_of m (outs m) c b fun h => hb (by rw [List.mem_singleton.mp h]; decide)

/-! ## The launches as segments -/

set_option backward.isDefEq.respectTransparency.types false in
/-- Launch 0 as a segment of the run: entered with every unscoped buffer at the contents before it, left with them
    at the contents after it. Its arrays are taken out of the unscoped buffers at entry and put back at exit with the
    output array at what the last write-back left; the generator register rides through the launch's invariant. -/
def reg0 : Pipeline.RegionSeg (pcfgs (F := F)) adm (pdats m) () defs₀ Variants.none Lv lvl 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ Lv lvl 0 fun _ _ => rfl
  pre c := iprop(StableHlo.held (c : Thread nD τ) (Pipeline.ucRefs τ sig) (V0 m c) ∗ Rest c)
  post c := iprop(StableHlo.held (c : Thread nD τ) (Pipeline.ucRefs τ sig) (V1 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (StableHlo.held (c : Thread nD τ) (Pipeline.ucRefs τ sig) (V0 m c) : sProp 𝕄)
        ⊢ iprop((pdats m 0 c).arrays ((pdats m 0 c).arrAt · 0) ∗ Pipeline.unscopedRest spec0 c (Vin0 m c)) := by
      rw [← Pipeline.unscopedBufs_held]
      exact entry0 (Vin0 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Vin0 m c))
        ⊢ (StableHlo.held (c : Thread nD τ) (Pipeline.ucRefs τ sig) (V1 m (outs m) c) : sProp 𝕄) := by
      rw [← Pipeline.unscopedBufs_held]
      exact exit0 (Vin0 m) (fun c b => V1 m (outs m) c b) c ((pdats m 0 c).arrAt · cfg0.N)
        (((dat0 (Vin0 m) c).arrAt_in 0 rfl _).trans (V1_arr m c).symm) (((dat0 (Vin0 m) c).arrAt_in 1 rfl _).trans (V1_arr m c).symm)
        (V1_out m c).symm (V1_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment of the run: entered with every unscoped buffer at the contents before it, left with them
    at the contents after it. Its arrays are taken out of the unscoped buffers at entry and put back at exit with the
    output array at what the last write-back left; the generator register rides through the launch's invariant. -/
def reg1 : Pipeline.RegionSeg (pcfgs (F := F)) adm (pdats m) () defs₀ Variants.none Lv lvl 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ Lv lvl 1 fun _ _ => rfl
  pre c := iprop(StableHlo.held (c : Thread nD τ) (Pipeline.ucRefs τ sig) (V2 m (outsA m) c) ∗ Rest c)
  post c := iprop(StableHlo.held (c : Thread nD τ) (Pipeline.ucRefs τ sig) (V3 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit : (StableHlo.held (c : Thread nD τ) (Pipeline.ucRefs τ sig) (V2 m (outsA m) c) : sProp 𝕄)
        ⊢ iprop((pdats m 1 c).arrays ((pdats m 1 c).arrAt · 0) ∗ Pipeline.unscopedRest spec1 c (Vin1 m c)) := by
      rw [← Pipeline.unscopedBufs_held]
      exact entry1 (Vin1 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vin1 m c))
        ⊢ (StableHlo.held (c : Thread nD τ) (Pipeline.ucRefs τ sig) (V3 m (outs m) c) : sProp 𝕄) := by
      rw [← Pipeline.unscopedBufs_held]
      exact exit1 (Vin1 m) (fun c b => V3 m (outs m) c b) c ((pdats m 1 c).arrAt · cfg1.N)
        (((dat1 (Vin1 m) c).arrAt_in 0 rfl _).trans (V3_arr m c).symm) (((dat1 (Vin1 m) c).arrAt_in 1 rfl _).trans (V3_arr m c).symm)
        (V3_out m c).symm (V3_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment of the run: entered with every unscoped buffer at the contents before it, left with them
    at the contents after it. Its arrays are taken out of the unscoped buffers at entry and put back at exit with the
    output array at what the last write-back left; the generator register rides through the launch's invariant. -/
def reg2 : Pipeline.RegionSeg (pcfgs (F := F)) adm (pdats m) () defs₀ Variants.none Lv lvl 2 where
  win := launch2.win.to₀
  block_pos := block_pos2
  stage_whole := stage_whole2
  K := PEmpty
  osem k := k.elim
  ho := Pipeline.OwnSemFacts.none _
  hbody c := (body_obligation2 (Vin2 m) c).loose
  hwaits := Pipeline.hwaits_of_owed_zero _ _ _ _ Lv lvl 2 fun _ _ => rfl
  pre c := iprop(StableHlo.held (c : Thread nD τ) (Pipeline.ucRefs τ sig) (V4 m (outsB m) c) ∗ Rest c)
  post c := iprop(StableHlo.held (c : Thread nD τ) (Pipeline.ucRefs τ sig) (V5 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit : (StableHlo.held (c : Thread nD τ) (Pipeline.ucRefs τ sig) (V4 m (outsB m) c) : sProp 𝕄)
        ⊢ iprop((pdats m 2 c).arrays ((pdats m 2 c).arrAt · 0) ∗ Pipeline.unscopedRest spec2 c (Vin2 m c)) := by
      rw [← Pipeline.unscopedBufs_held]
      exact Pipeline.arrays_of_unscopedBufs (p := 2) (pcfgs (F := F)) adm (pdats m) launch2.win launch2.arr_whole c
        ((pdats m 2 c).share_full fun _ => rfl) (Vin2 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (Vin2 m c))
        ⊢ (StableHlo.held (c : Thread nD τ) (Pipeline.ucRefs τ sig) (V5 m (outs m) c) : sProp 𝕄) := by
      rw [← Pipeline.unscopedBufs_held]
      exact Pipeline.unscopedBufs_of_arrays (p := 2) (pcfgs (F := F)) adm (Ix := Unit) (Name := ℕ) (U := UR sig nD τ) (Lvl := ℕ)
        launch2.win launch2.arr_whole c (pdats m) ((pdats m 2 c).share_full fun _ => rfl)
        (Vin2 m c) (fun b => V5 m (outs m) c b) ((pdats m 2 c).arrAt · cfg2.N)
        (fun w => match w with
          | ⟨0, _⟩ => ((dat2 (Vin2 m) c).arrAt_in 0 rfl _).trans (V5_arr0 m c).symm
          | ⟨1, _⟩ => ((dat2 (Vin2 m) c).arrAt_in 1 rfl _).trans (V5_arr1 m c).symm
          | ⟨2, _⟩ => (V5_out m c).symm)
        (V5_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- The run of the whole program, given the three launches' records: every weakly fair execution from memory m
    with zero counters terminates, and the final memory holds the result buffer at the last valuation of the chain
    (the launch contents pushed through the three launches' results and the host operations between and after
    them) and each argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => ∀ c : Dev nD,
      r.2.mem ((c.tc : Thread nD τ).loc main_v14) = V6 m outs c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨hpre0 c, hpost0 c, hpre1 c, hpost1 c, hpre2 c, hpost2 c, sep_mono .rfl (hE3 c)⟩)
    (hinit := ?_) (QY := fun c s => s.mem ((c.tc : Thread nD τ).loc main_v14) = V6 m outs c main_v14 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers at the launch contents; the rest makes the first thread state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c)⟩
    · iexact HSI

set_option backward.isDefEq.respectTransparency.types false in
/-- THE RUN: from any memory with zero counters every weakly fair execution of the program terminates, nothing
    faulting; the result buffer ends at the chain's last contents and the argument arrays as launched. -/
theorem run_main (ρ : Dev nD → PrngReg) :
    θ_run defs (onTc (τ := τ) (main (F := F))) ⟨m, fun _ => 0, ρ⟩ (fun r => ∀ c : Dev nD,
      r.2.mem ((c.tc : Thread nD τ).loc main_v14) = V6 m (outs m) c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (Ix := Unit) (U := UR sig nD τ) (Lvl := ℕ) emb₁ () Variants.none Lv lvl (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => Rest)
    (hE0 := by
      refine Pipeline.initEach Lv lvl fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun _ => .rfl) (hpost0 := fun _ => .rfl)
    (R1 := reg1 m) (hpre1 := fun c => by rw [V2_outs]; exact .rfl) (hpost1 := fun _ => .rfl)
    (R2 := reg2 m) (hpre2 := fun c => by rw [V4_outs]; exact .rfl) (hpost2 := fun _ => .rfl)

end Cert.Kernel.Hand

end
-- ==== Proof.KIBody0.lean ====
import proofs.«169877_j27968827031704_1_alg».proof.Proof.Gen.KernelIdeal.Launch
import proofs.«169877_j27968827031704_1_alg».proof.Proof.Gen.KernelIdeal.Skeleton
import proofs.«169877_j27968827031704_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## Launch 0: the branch of the body, and the body run in its two cases

The body resets the one-element accumulator block at the grid's first point (both coordinates zero) and at
every point adds the tile's partial sum to it. -/

/-- The body's branch condition at grid coordinates i: both coordinates are zero. -/
abbrev reset0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem reset0_iff : ∀ t : Fin cfg0.N, reset0 (grid0.coords t) ↔ t.val = 0 :=
  (by decide +kernel : ∀ t : Fin grid0.N, reset0 (grid0.coords t) ↔ t.val = 0)

set_option maxHeartbeats 1000000 in
/-- The body at the first point: the accumulator block, whatever it held, ends with the pieces the two stores
    write (the zero block, then the tile's sum over the zero block read back). -/
noncomputable def runFirst0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset0 i) (x0 x1 : Vec F S1024x1024 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__rbf_sum_kernel i arg2 harg2 arg3 harg3 arg4 harg4) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at every later point: the accumulator block, holding xo, ends with the piece the one store writes
    (the tile's sum over xo). -/
noncomputable def runRest0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset0 i) (x0 x1 : Vec F S1024x1024 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__rbf_sum_kernel i arg2 harg2 arg3 harg3 arg4 harg4) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The staging memrefs at a point, as the pipeline passes them to the body -/

/-- One staging buffer of the output window, through which its contents are stated. -/
abbrev VO0 : View sig .tc .vmem S1x1 .f32 := (Memref.whole cc0_stg2_0 : Memref sig .tc .vmem S1x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KIRegion0.lean ====
import proofs.«169877_j27968827031704_1_alg».proof.Proof.KIBody0
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the core's buffer contents when the launch is entered: a parameter, fixed later by the run of the whole program
variable (V : (c : Dev nD) → (b : Ref sig .tc) → Buf (Elt F) ((c : Thread nD τ).loc b))

/-! ## Launch 0: the windows' blocks -/

/-- Window w's block at point t, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    point has the block index of the point before), for any proof data that reads the array off V and whose body
    leaves the block in place. -/
theorem before_in0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before_in0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the accumulator block, case by case -/

/-- The first point's stores cover the one-element block. -/
theorem coverFirst0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset0 i) (x0 x1 : Vec F S1024x1024 .f32) (y : S1x1.Idx) :
    ∃ pc ∈ (runFirst0 c i arg2 harg2 arg3 harg3 arg4 harg4 hc x0 x1).1, y ∈ pc.1.set :=
  View.cover_of_tiledL (runFirst0 c i arg2 harg2 arg3 harg3 arg4 harg4 hc x0 x1).1 S1x1.size (by sl_kernel_rfl) y

/-- What the first point leaves in the accumulator block. -/
def outFirst0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset0 i) (x0 x1 : Vec F S1024x1024 .f32) : Vec F S1x1 .f32 :=
  VO0.read (Elt F) (VO0.writes (Elt F) VO0.junk (runFirst0 c i arg2 harg2 arg3 harg3 arg4 harg4 hc x0 x1).1)

/-- A later point's store covers the block. -/
theorem coverRest0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset0 i) (x0 x1 : Vec F S1024x1024 .f32) (xo : Vec F S1x1 .f32) (y : S1x1.Idx) :
    ∃ pc ∈ (runRest0 c i arg2 harg2 arg3 harg3 arg4 harg4 hc x0 x1 xo).1, y ∈ pc.1.set :=
  View.cover_of_tiledL (runRest0 c i arg2 harg2 arg3 harg3 arg4 harg4 hc x0 x1 xo).1 S1x1.size (by sl_kernel_rfl) y

/-- What a later point leaves in the accumulator block, over what it found there. -/
def outRest0 (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset0 i) (x0 x1 : Vec F S1024x1024 .f32) (xo : Vec F S1x1 .f32) : Vec F S1x1 .f32 :=
  VO0.read (Elt F) (VO0.writes (Elt F) VO0.junk (runRest0 c i arg2 harg2 arg3 harg3 arg4 harg4 hc x0 x1 xo).1)

/-! ## The accumulation -/

/-- What the accumulator block holds after the body at position n: the first point's result, then each later
    point's over what the point before left (the block is not written back in between). -/
def accAt0 (c : Dev nD) : (n : ℕ) → n < cfg0.N → Vec F S1x1 .f32
  | 0, hn => outFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((reset0_iff ⟨0, hn⟩).mpr rfl) (blk0 V c 0 ⟨0, hn⟩) (blk0 V c 1 ⟨0, hn⟩)
  | n + 1, hn =>
      outRest0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => Nat.succ_ne_zero n ((reset0_iff ⟨n + 1, hn⟩).mp h)) (blk0 V c 0 ⟨n + 1, hn⟩) (blk0 V c 1 ⟨n + 1, hn⟩) (accAt0 c n (Nat.lt_of_succ_lt hn))

theorem accAt0_first (c : Dev nD) (t : Fin cfg0.N) (h0 : t.val = 0) :
    accAt0 V c t.val t.isLt = outFirst0 c (grid0.coords t) (ms0_0 t) (hs0_0 t) (ms0_1 t) (hs0_1 t) (ms0_2 t) (hs0_2 t)
      ((reset0_iff t).mpr h0) (blk0 V c 0 t) (blk0 V c 1 t) := by
  obtain ⟨n, hn⟩ := t
  cases n with
  | zero => exact rfl
  | succ n => exact absurd h0 (Nat.succ_ne_zero n)

theorem accAt0_rest (c : Dev nD) (t : Fin cfg0.N) (h0 : ¬t.val = 0) :
    accAt0 V c t.val t.isLt = outRest0 c (grid0.coords t) (ms0_0 t) (hs0_0 t) (ms0_1 t) (hs0_1 t) (ms0_2 t) (hs0_2 t)
      (fun h => h0 ((reset0_iff t).mp h)) (blk0 V c 0 t) (blk0 V c 1 t)
      (accAt0 V c (t.val - 1) (Nat.lt_of_le_of_lt (Nat.sub_le _ _) t.isLt)) := by
  obtain ⟨n, hn⟩ := t
  cases n with
  | zero => exact absurd rfl h0
  | succ n => exact rfl

/-! ## The launch's proof data -/

/-- The proof data of launch 0 on core c: the arrays as the launch finds them; after the body at point t each
    input buffer at its block, the accumulator block at the running sum; the scoped rest and the generator
    register ride along untouched; nothing owed; the two input windows hold their array at the shares below. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => accAt0 V c t.val t.isLt
  Φ _ := Pipeline.ΦA spec0 c
  q w := match w with | ⟨0, _⟩ => fullShare.left | ⟨1, _⟩ => fullShare.right | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = blk0 V c 0 t :=
  before_in0_0_of V (dat0 V c) (A_eq0 V c 0) (after0_0 V c) t d
theorem before0_1 (c : Dev nD) (t : Fin cfg0.N) (d) : (dat0 V c).before 1 t d = blk0 V c 1 t :=
  before_in0_1_of V (dat0 V c) (A_eq0 V c 1) (after0_1 V c) t d
/-- At a later point the accumulator's buffer holds what the body left at the point before: the block is written
    back at the last point only. -/
theorem before0_2_rest (c : Dev nD) (t : Fin cfg0.N) (h0 : ¬t.val = 0) (d) :
    (dat0 V c).before 2 t d = accAt0 V c (t.val - 1) (Nat.lt_of_le_of_lt (Nat.sub_le _ _) t.isLt) := by
  have hN : t.val < 16 := lt_of_lt_of_eq t.isLt (show cfg0.N = 16 from N_0)
  rw [Dat.before_out_kept _ 2 rfl t h0 (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the input buffers hold their blocks; at the first point the accumulator block may hold
    anything, at a later one it holds the running sum; the run of the matching case applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [accAt0_first V c t h0]
    unfold outFirst0
    iintro ⟨HΦ, Ho, ⟨%d0, H0⟩, ⟨%d1, H1⟩, ⟨%d2, H2⟩⟩
    iapply ((runFirst0 c (grid0.coords t) _ _ _ _ _ _ ((reset0_iff t).mpr h0) (blk0 V c 0 t) (blk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst0 c _ _ _ _ _ _ _ _ _ _)
  · rw [accAt0_rest V c t h0]
    simp only [before0_2_rest V c t h0]
    unfold outRest0
    iintro ⟨HΦ, Ho, ⟨%d0, H0⟩, ⟨%d1, H1⟩, ⟨%d2, H2⟩⟩
    iapply ((runRest0 c (grid0.coords t) _ _ _ _ _ _ (fun h => h0 ((reset0_iff t).mp h)) (blk0 V c 0 t) (blk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverRest0 c _ _ _ _ _ _ _ _ _ _ _)

/-- The body obligation of launch 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
import proofs.«169877_j27968827031704_1_alg».proof.Proof.Gen.KernelIdeal.Launch
import proofs.«169877_j27968827031704_1_alg».proof.Proof.Gen.KernelIdeal.Skeleton
import proofs.«169877_j27968827031704_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## Launch 1: the branch of the body, and the body run in its two cases

The body resets the one-element accumulator block at the grid's first point (both coordinates zero) and at
every point adds the tile's partial sum to it. -/

/-- The body's branch condition at grid coordinates i: both coordinates are zero. -/
abbrev reset1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem reset1_iff : ∀ t : Fin cfg1.N, reset1 (grid1.coords t) ↔ t.val = 0 :=
  (by decide +kernel : ∀ t : Fin grid1.N, reset1 (grid1.coords t) ↔ t.val = 0)

set_option maxHeartbeats 1000000 in
/-- The body at the first point: the accumulator block, whatever it held, ends with the pieces the two stores
    write (the zero block, then the tile's sum over the zero block read back). -/
noncomputable def runFirst1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset1 i) (x0 x1 : Vec F S1024x1024 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__rbf_sum_kernel i arg2 harg2 arg3 harg3 arg4 harg4) K } := by
  refine ⟨?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at every later point: the accumulator block, holding xo, ends with the piece the one store writes
    (the tile's sum over xo). -/
noncomputable def runRest1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset1 i) (x0 x1 : Vec F S1024x1024 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__rbf_sum_kernel i arg2 harg2 arg3 harg3 arg4 harg4) K } := by
  refine ⟨?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The staging memrefs at a point, as the pipeline passes them to the body -/

/-- One staging buffer of the output window, through which its contents are stated. -/
abbrev VO1 : View sig .tc .vmem S1x1 .f32 := (Memref.whole cc1_stg2_0 : Memref sig .tc .vmem S1x1 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

end Cert.KernelIdeal.Hand

end
-- ==== Proof.KIRegion1.lean ====
import proofs.«169877_j27968827031704_1_alg».proof.Proof.KIBody1
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the core's buffer contents when the launch is entered: a parameter, fixed later by the run of the whole program
variable (V : (c : Dev nD) → (b : Ref sig .tc) → Buf (Elt F) ((c : Thread nD τ).loc b))

/-! ## Launch 1: the windows' blocks -/

/-- Window w's block at point t, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    point has the block index of the point before), for any proof data that reads the array off V and whose body
    leaves the block in place. -/
theorem before_in1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before_in1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the accumulator block, case by case -/

/-- The first point's stores cover the one-element block. -/
theorem coverFirst1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset1 i) (x0 x1 : Vec F S1024x1024 .f32) (y : S1x1.Idx) :
    ∃ pc ∈ (runFirst1 c i arg2 harg2 arg3 harg3 arg4 harg4 hc x0 x1).1, y ∈ pc.1.set :=
  View.cover_of_tiledL (runFirst1 c i arg2 harg2 arg3 harg3 arg4 harg4 hc x0 x1).1 S1x1.size (by sl_kernel_rfl) y

/-- What the first point leaves in the accumulator block. -/
def outFirst1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset1 i) (x0 x1 : Vec F S1024x1024 .f32) : Vec F S1x1 .f32 :=
  VO1.read (Elt F) (VO1.writes (Elt F) VO1.junk (runFirst1 c i arg2 harg2 arg3 harg3 arg4 harg4 hc x0 x1).1)

/-- A later point's store covers the block. -/
theorem coverRest1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset1 i) (x0 x1 : Vec F S1024x1024 .f32) (xo : Vec F S1x1 .f32) (y : S1x1.Idx) :
    ∃ pc ∈ (runRest1 c i arg2 harg2 arg3 harg3 arg4 harg4 hc x0 x1 xo).1, y ∈ pc.1.set :=
  View.cover_of_tiledL (runRest1 c i arg2 harg2 arg3 harg3 arg4 harg4 hc x0 x1 xo).1 S1x1.size (by sl_kernel_rfl) y

/-- What a later point leaves in the accumulator block, over what it found there. -/
def outRest1 (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset1 i) (x0 x1 : Vec F S1024x1024 .f32) (xo : Vec F S1x1 .f32) : Vec F S1x1 .f32 :=
  VO1.read (Elt F) (VO1.writes (Elt F) VO1.junk (runRest1 c i arg2 harg2 arg3 harg3 arg4 harg4 hc x0 x1 xo).1)

/-! ## The accumulation -/

/-- What the accumulator block holds after the body at position n: the first point's result, then each later
    point's over what the point before left (the block is not written back in between). -/
def accAt1 (c : Dev nD) : (n : ℕ) → n < cfg1.N → Vec F S1x1 .f32
  | 0, hn => outFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((reset1_iff ⟨0, hn⟩).mpr rfl) (blk1 V c 0 ⟨0, hn⟩) (blk1 V c 1 ⟨0, hn⟩)
  | n + 1, hn =>
      outRest1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => Nat.succ_ne_zero n ((reset1_iff ⟨n + 1, hn⟩).mp h)) (blk1 V c 0 ⟨n + 1, hn⟩) (blk1 V c 1 ⟨n + 1, hn⟩) (accAt1 c n (Nat.lt_of_succ_lt hn))

theorem accAt1_first (c : Dev nD) (t : Fin cfg1.N) (h0 : t.val = 0) :
    accAt1 V c t.val t.isLt = outFirst1 c (grid1.coords t) (ms1_0 t) (hs1_0 t) (ms1_1 t) (hs1_1 t) (ms1_2 t) (hs1_2 t)
      ((reset1_iff t).mpr h0) (blk1 V c 0 t) (blk1 V c 1 t) := by
  obtain ⟨n, hn⟩ := t
  cases n with
  | zero => exact rfl
  | succ n => exact absurd h0 (Nat.succ_ne_zero n)

theorem accAt1_rest (c : Dev nD) (t : Fin cfg1.N) (h0 : ¬t.val = 0) :
    accAt1 V c t.val t.isLt = outRest1 c (grid1.coords t) (ms1_0 t) (hs1_0 t) (ms1_1 t) (hs1_1 t) (ms1_2 t) (hs1_2 t)
      (fun h => h0 ((reset1_iff t).mp h)) (blk1 V c 0 t) (blk1 V c 1 t)
      (accAt1 V c (t.val - 1) (Nat.lt_of_le_of_lt (Nat.sub_le _ _) t.isLt)) := by
  obtain ⟨n, hn⟩ := t
  cases n with
  | zero => exact absurd rfl h0
  | succ n => exact rfl

/-! ## The launch's proof data -/

/-- The proof data of launch 1 on core c: the arrays as the launch finds them; after the body at point t each
    input buffer at its block, the accumulator block at the running sum; the scoped rest and the generator
    register ride along untouched; nothing owed; the two input windows hold their array at the shares below. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => accAt1 V c t.val t.isLt
  Φ _ := Pipeline.ΦA spec1 c
  q w := match w with | ⟨0, _⟩ => fullShare.left | ⟨1, _⟩ => fullShare.right | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = blk1 V c 0 t :=
  before_in1_0_of V (dat1 V c) (A_eq1 V c 0) (after1_0 V c) t d
theorem before1_1 (c : Dev nD) (t : Fin cfg1.N) (d) : (dat1 V c).before 1 t d = blk1 V c 1 t :=
  before_in1_1_of V (dat1 V c) (A_eq1 V c 1) (after1_1 V c) t d
/-- At a later point the accumulator's buffer holds what the body left at the point before: the block is written
    back at the last point only. -/
theorem before1_2_rest (c : Dev nD) (t : Fin cfg1.N) (h0 : ¬t.val = 0) (d) :
    (dat1 V c).before 2 t d = accAt1 V c (t.val - 1) (Nat.lt_of_le_of_lt (Nat.sub_le _ _) t.isLt) := by
  have hN : t.val < 16 := lt_of_lt_of_eq t.isLt (show cfg1.N = 16 from N_1)
  rw [Dat.before_out_kept _ 2 rfl t h0 (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the input buffers hold their blocks; at the first point the accumulator block may hold
    anything, at a later one it holds the running sum; the run of the matching case applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [accAt1_first V c t h0]
    unfold outFirst1
    iintro ⟨HΦ, Ho, ⟨%d0, H0⟩, ⟨%d1, H1⟩, ⟨%d2, H2⟩⟩
    iapply ((runFirst1 c (grid1.coords t) _ _ _ _ _ _ ((reset1_iff t).mpr h0) (blk1 V c 0 t) (blk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst1 c _ _ _ _ _ _ _ _ _ _)
  · rw [accAt1_rest V c t h0]
    simp only [before1_2_rest V c t h0]
    unfold outRest1
    iintro ⟨HΦ, Ho, ⟨%d0, H0⟩, ⟨%d1, H1⟩, ⟨%d2, H2⟩⟩
    iapply ((runRest1 c (grid1.coords t) _ _ _ _ _ _ (fun h => h0 ((reset1_iff t).mp h)) (blk1 V c 0 t) (blk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverRest1 c _ _ _ _ _ _ _ _ _ _ _)

/-- The body obligation of launch 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBody2.lean ====
import proofs.«169877_j27968827031704_1_alg».proof.Proof.Gen.KernelIdeal.Launch
import proofs.«169877_j27968827031704_1_alg».proof.Proof.Gen.KernelIdeal.Skeleton
import proofs.«169877_j27968827031704_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## Launch 2: the branch of the body, and the body run in its two cases

The body resets the one-element accumulator block at the grid's first point (both coordinates zero) and at
every point adds the tile's partial sum to it. -/

/-- The body's branch condition at grid coordinates i: both coordinates are zero. -/
abbrev reset2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem reset2_iff : ∀ t : Fin cfg2.N, reset2 (grid2.coords t) ↔ t.val = 0 :=
  (by decide +kernel : ∀ t : Fin grid2.N, reset2 (grid2.coords t) ↔ t.val = 0)

set_option maxHeartbeats 1000000 in
/-- The body at the first point: the accumulator block, whatever it held, ends with the pieces the two stores
    write (the zero block, then the tile's sum over the zero block read back). -/
noncomputable def runFirst2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset2 i) (x0 x1 : Vec F S1024x1024 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc2__rbf_sum_kernel i arg2 harg2 arg3 harg3 arg4 harg4) K } := by
  refine ⟨?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at every later point: the accumulator block, holding xo, ends with the piece the one store writes
    (the tile's sum over xo). -/
noncomputable def runRest2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset2 i) (x0 x1 : Vec F S1024x1024 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc2__rbf_sum_kernel i arg2 harg2 arg3 harg3 arg4 harg4) K } := by
  refine ⟨?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The staging memrefs at a point, as the pipeline passes them to the body -/

/-- One staging buffer of the output window, through which its contents are stated. -/
abbrev VO2 : View sig .tc .vmem S1x1 .f32 := (Memref.whole cc2_stg2_0 : Memref sig .tc .vmem S1x1 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

end Cert.KernelIdeal.Hand

end
-- ==== Proof.KIRegion2.lean ====
import proofs.«169877_j27968827031704_1_alg».proof.Proof.KIBody2
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the core's buffer contents when the launch is entered: a parameter, fixed later by the run of the whole program
variable (V : (c : Dev nD) → (b : Ref sig .tc) → Buf (Elt F) ((c : Thread nD τ).loc b))

/-! ## Launch 2: the windows' blocks -/

/-- Window w's block at point t, read off its array as the launch finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    point has the block index of the point before), for any proof data that reads the array off V and whose body
    leaves the block in place. -/
theorem before_in2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before_in2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the accumulator block, case by case -/

/-- The first point's stores cover the one-element block. -/
theorem coverFirst2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset2 i) (x0 x1 : Vec F S1024x1024 .f32) (y : S1x1.Idx) :
    ∃ pc ∈ (runFirst2 c i arg2 harg2 arg3 harg3 arg4 harg4 hc x0 x1).1, y ∈ pc.1.set :=
  View.cover_of_tiledL (runFirst2 c i arg2 harg2 arg3 harg3 arg4 harg4 hc x0 x1).1 S1x1.size (by sl_kernel_rfl) y

/-- What the first point leaves in the accumulator block. -/
def outFirst2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset2 i) (x0 x1 : Vec F S1024x1024 .f32) : Vec F S1x1 .f32 :=
  VO2.read (Elt F) (VO2.writes (Elt F) VO2.junk (runFirst2 c i arg2 harg2 arg3 harg3 arg4 harg4 hc x0 x1).1)

/-- A later point's store covers the block. -/
theorem coverRest2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset2 i) (x0 x1 : Vec F S1024x1024 .f32) (xo : Vec F S1x1 .f32) (y : S1x1.Idx) :
    ∃ pc ∈ (runRest2 c i arg2 harg2 arg3 harg3 arg4 harg4 hc x0 x1 xo).1, y ∈ pc.1.set :=
  View.cover_of_tiledL (runRest2 c i arg2 harg2 arg3 harg3 arg4 harg4 hc x0 x1 xo).1 S1x1.size (by sl_kernel_rfl) y

/-- What a later point leaves in the accumulator block, over what it found there. -/
def outRest2 (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset2 i) (x0 x1 : Vec F S1024x1024 .f32) (xo : Vec F S1x1 .f32) : Vec F S1x1 .f32 :=
  VO2.read (Elt F) (VO2.writes (Elt F) VO2.junk (runRest2 c i arg2 harg2 arg3 harg3 arg4 harg4 hc x0 x1 xo).1)

/-! ## The accumulation -/

/-- What the accumulator block holds after the body at position n: the first point's result, then each later
    point's over what the point before left (the block is not written back in between). -/
def accAt2 (c : Dev nD) : (n : ℕ) → n < cfg2.N → Vec F S1x1 .f32
  | 0, hn => outFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩)
      ((reset2_iff ⟨0, hn⟩).mpr rfl) (blk2 V c 0 ⟨0, hn⟩) (blk2 V c 1 ⟨0, hn⟩)
  | n + 1, hn =>
      outRest2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
        (fun h => Nat.succ_ne_zero n ((reset2_iff ⟨n + 1, hn⟩).mp h)) (blk2 V c 0 ⟨n + 1, hn⟩) (blk2 V c 1 ⟨n + 1, hn⟩) (accAt2 c n (Nat.lt_of_succ_lt hn))

theorem accAt2_first (c : Dev nD) (t : Fin cfg2.N) (h0 : t.val = 0) :
    accAt2 V c t.val t.isLt = outFirst2 c (grid2.coords t) (ms2_0 t) (hs2_0 t) (ms2_1 t) (hs2_1 t) (ms2_2 t) (hs2_2 t)
      ((reset2_iff t).mpr h0) (blk2 V c 0 t) (blk2 V c 1 t) := by
  obtain ⟨n, hn⟩ := t
  cases n with
  | zero => exact rfl
  | succ n => exact absurd h0 (Nat.succ_ne_zero n)

theorem accAt2_rest (c : Dev nD) (t : Fin cfg2.N) (h0 : ¬t.val = 0) :
    accAt2 V c t.val t.isLt = outRest2 c (grid2.coords t) (ms2_0 t) (hs2_0 t) (ms2_1 t) (hs2_1 t) (ms2_2 t) (hs2_2 t)
      (fun h => h0 ((reset2_iff t).mp h)) (blk2 V c 0 t) (blk2 V c 1 t)
      (accAt2 V c (t.val - 1) (Nat.lt_of_le_of_lt (Nat.sub_le _ _) t.isLt)) := by
  obtain ⟨n, hn⟩ := t
  cases n with
  | zero => exact absurd rfl h0
  | succ n => exact rfl

/-! ## The launch's proof data -/

/-- The proof data of launch 2 on core c: the arrays as the launch finds them; after the body at point t each
    input buffer at its block, the accumulator block at the running sum; the scoped rest and the generator
    register ride along untouched; nothing owed; the two input windows hold their array at the shares below. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => accAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = accAt2 V c t.val t.isLt := by dsimp only [dat2]

theorem before2_0 (c : Dev nD) (t : Fin cfg2.N) (d) : (dat2 V c).before 0 t d = blk2 V c 0 t :=
  before_in2_0_of V (dat2 V c) (A_eq2 V c 0) (after2_0 V c) t d
theorem before2_1 (c : Dev nD) (t : Fin cfg2.N) (d) : (dat2 V c).before 1 t d = blk2 V c 1 t :=
  before_in2_1_of V (dat2 V c) (A_eq2 V c 1) (after2_1 V c) t d
/-- At a later point the accumulator's buffer holds what the body left at the point before: the block is written
    back at the last point only. -/
theorem before2_2_rest (c : Dev nD) (t : Fin cfg2.N) (h0 : ¬t.val = 0) (d) :
    (dat2 V c).before 2 t d = accAt2 V c (t.val - 1) (Nat.lt_of_le_of_lt (Nat.sub_le _ _) t.isLt) := by
  have hN : t.val < 16 := lt_of_lt_of_eq t.isLt (show cfg2.N = 16 from N_2)
  rw [Dat.before_out_kept _ 2 rfl t h0 (Bool.eq_false_iff.mpr fun h => by have := (flush2_2 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the input buffers hold their blocks; at the first point the accumulator block may hold
    anything, at a later one it holds the running sum; the run of the matching case applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  by_cases h0 : t.val = 0
  · rw [accAt2_first V c t h0]
    unfold outFirst2
    iintro ⟨HΦ, Ho, ⟨%d0, H0⟩, ⟨%d1, H1⟩, ⟨%d2, H2⟩⟩
    iapply ((runFirst2 c (grid2.coords t) _ _ _ _ _ _ ((reset2_iff t).mpr h0) (blk2 V c 0 t) (blk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst2 c _ _ _ _ _ _ _ _ _ _)
  · rw [accAt2_rest V c t h0]
    simp only [before2_2_rest V c t h0]
    unfold outRest2
    iintro ⟨HΦ, Ho, ⟨%d0, H0⟩, ⟨%d1, H1⟩, ⟨%d2, H2⟩⟩
    iapply ((runRest2 c (grid2.coords t) _ _ _ _ _ _ (fun h => h0 ((reset2_iff t).mp h)) (blk2 V c 0 t) (blk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverRest2 c _ _ _ _ _ _ _ _ _ _ _)

/-- The body obligation of launch 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIShare0.lean ====
import proofs.«169877_j27968827031704_1_alg».proof.Proof.KIRegion0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## Launch 0: the arrays behind the windows, at entry and at exit

Both input windows read one array; the output window writes a second. At entry the input array's full share is
halved between the two input windows; at exit the halves are joined again. -/

/-- The buffers behind the windows' arrays. -/
theorem arrImage0 : Finset.univ.image (Pipeline.arrRef (cfgs (0 : Fin 3)).spec) = {main_arg0, main_v0} := by decide

theorem share0_0 (V : (c : Dev nD) → (b : Ref sig .tc) → Buf (Elt F) ((c : Thread nD τ).loc b)) (c : Dev nD) :
    (dat0 V c).share 0 = fullShare.left := rfl
theorem share0_1 (V : (c : Dev nD) → (b : Ref sig .tc) → Buf (Elt F) ((c : Thread nD τ).loc b)) (c : Dev nD) :
    (dat0 V c).share 1 = fullShare.right := rfl
theorem share0_2 (V : (c : Dev nD) → (b : Ref sig .tc) → Buf (Elt F) ((c : Thread nD τ).loc b)) (c : Dev nD) :
    (dat0 V c).share 2 = fullShare := rfl

/-- The windowed arrays of launch 0, written out: the input array at its two half shares, the output array whole. -/
theorem arrays0_eq (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  have h : ((dat0 V c).arrays G : sProp 𝕄)
      = bigSep Finset.univ fun w : Fin cfg0.W => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0, share0_0, share0_1, share0_2]

/-- The distinct buffers behind the arrays, written out. -/
theorem arrBufs0_eq (c : Dev nD) (W : (b : Ref sig .tc) → Buf (Elt F) ((c : Thread nD τ).loc b)) :
    (Pipeline.arrBufs (Ix := Unit) (Name := ℕ) (U := UR sig nD τ) (Lvl := ℕ) (cfgs (0 : Fin 3)).spec c W : sProp 𝕄)
      = iprop((((c : Thread nD τ).loc main_arg0) ↦{fullShare} W main_arg0) ∗ (((c : Thread nD τ).loc main_v0) ↦{fullShare} W main_v0)) := by
  unfold Pipeline.arrBufs
  rw [arrImage0, bigSep_insert (by decide), bigSep_singleton]
  rfl

/-- ENTRY: the core's unscoped buffers at V are the launch's arrays at their entry contents and the rest. -/
theorem entry0 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ (cfgs := cfgs) (p := (0 : Fin 3)) winFacts₀0.arr_unscoped c (V c), arrays0_eq]
  refine sep_mono ?_ .rfl
  rw [arrBufs0_eq]
  iintro ⟨Ha, Ho⟩
  ihave Ha := (pointsTo_share (PosShare.mem_left_op_right fullShare)).1 $$ Ha
  icases Ha with ⟨Ha₁, Ha₂⟩
  isplitl [Ha₁]; · iexact Ha₁
  isplitl [Ha₂]; · iexact Ha₂
  iexact Ho

/-- EXIT: the launch's arrays at contents G and the rest at V are the core's unscoped buffers at any valuation
    that has the arrays at G and agrees with V elsewhere. -/
theorem exit0 (V V' : (c : Dev nD) → (b : Ref sig .tc) → Buf (Elt F) ((c : Thread nD τ).loc b)) (c : Dev nD)
    (G : (w : Fin cfg0.W) → Buf (Elt F) ((cfg0.win w).arr.view.loc (c : Thread nD τ)))
    (hG0 : G 0 = V' c main_arg0) (hG1 : G 1 = V' c main_arg0) (hG2 : G 2 = V' c main_v0)
    (hrest : ∀ b, b ∉ Finset.univ.image (Pipeline.arrRef spec0) → V' c b = V c b) :
    iprop((dat0 V c).arrays G ∗ Pipeline.unscopedRest spec0 c (V c))
      ⊢ (unscopedBufs (Ix := Unit) (Name := ℕ) (U := UR sig nD τ) (Lvl := ℕ) c (V' c) : sProp 𝕄) := by
  rw [Pipeline.unscopedBufs_split₀ (cfgs := cfgs) (p := (0 : Fin 3)) winFacts₀0.arr_unscoped c (V' c), arrays0_eq, hG0, hG1, hG2]
  refine sep_mono ?_ (Entails.of_eq ?_)
  · rw [arrBufs0_eq]
    iintro ⟨Ha₁, Ha₂, Ho⟩
    isplitl [Ha₁ Ha₂]
    · iapply (pointsTo_share (PosShare.mem_left_op_right fullShare)).2
      isplitl [Ha₁] <;> iassumption
    iexact Ho
  · unfold Pipeline.unscopedRest
    exact bigSep_congr fun b hb => by rw [hrest b (Finset.mem_sdiff.mp hb).2]

end Cert.KernelIdeal.Hand

end
-- ==== Proof.KIShare1.lean ====
import proofs.«169877_j27968827031704_1_alg».proof.Proof.KIRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## Launch 1: the arrays behind the windows, at entry and at exit

Both input windows read one array; the output window writes a second. At entry the input array's full share is
halved between the two input windows; at exit the halves are joined again. -/

/-- The buffers behind the windows' arrays. -/
theorem arrImage1 : Finset.univ.image (Pipeline.arrRef (cfgs (1 : Fin 3)).spec) = {main_arg1, main_v4} := by decide

theorem share1_0 (V : (c : Dev nD) → (b : Ref sig .tc) → Buf (Elt F) ((c : Thread nD τ).loc b)) (c : Dev nD) :
    (dat1 V c).share 0 = fullShare.left := rfl
theorem share1_1 (V : (c : Dev nD) → (b : Ref sig .tc) → Buf (Elt F) ((c : Thread nD τ).loc b)) (c : Dev nD) :
    (dat1 V c).share 1 = fullShare.right := rfl
theorem share1_2 (V : (c : Dev nD) → (b : Ref sig .tc) → Buf (Elt F) ((c : Thread nD τ).loc b)) (c : Dev nD) :
    (dat1 V c).share 2 = fullShare := rfl

/-- The windowed arrays of launch 1, written out: the input array at its two half shares, the output array whole. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg1) ↦{fullShare.left} G 0) ∗ (((c : Thread nD τ).loc main_arg1) ↦{fullShare.right} G 1)
          ∗ (((c : Thread nD τ).loc main_v4) ↦{fullShare} G 2)) := by
  have h : ((dat1 V c).arrays G : sProp 𝕄)
      = bigSep Finset.univ fun w : Fin cfg1.W => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1, share1_0, share1_1, share1_2]

/-- The distinct buffers behind the arrays, written out. -/
theorem arrBufs1_eq (c : Dev nD) (W : (b : Ref sig .tc) → Buf (Elt F) ((c : Thread nD τ).loc b)) :
    (Pipeline.arrBufs (Ix := Unit) (Name := ℕ) (U := UR sig nD τ) (Lvl := ℕ) (cfgs (1 : Fin 3)).spec c W : sProp 𝕄)
      = iprop((((c : Thread nD τ).loc main_arg1) ↦{fullShare} W main_arg1) ∗ (((c : Thread nD τ).loc main_v4) ↦{fullShare} W main_v4)) := by
  unfold Pipeline.arrBufs
  rw [arrImage1, bigSep_insert (by decide), bigSep_singleton]
  rfl

/-- ENTRY: the core's unscoped buffers at V are the launch's arrays at their entry contents and the rest. -/
theorem entry1 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ (cfgs := cfgs) (p := (1 : Fin 3)) winFacts₀1.arr_unscoped c (V c), arrays1_eq]
  refine sep_mono ?_ .rfl
  rw [arrBufs1_eq]
  iintro ⟨Ha, Ho⟩
  ihave Ha := (pointsTo_share (PosShare.mem_left_op_right fullShare)).1 $$ Ha
  icases Ha with ⟨Ha₁, Ha₂⟩
  isplitl [Ha₁]; · iexact Ha₁
  isplitl [Ha₂]; · iexact Ha₂
  iexact Ho

/-- EXIT: the launch's arrays at contents G and the rest at V are the core's unscoped buffers at any valuation
    that has the arrays at G and agrees with V elsewhere. -/
theorem exit1 (V V' : (c : Dev nD) → (b : Ref sig .tc) → Buf (Elt F) ((c : Thread nD τ).loc b)) (c : Dev nD)
    (G : (w : Fin cfg1.W) → Buf (Elt F) ((cfg1.win w).arr.view.loc (c : Thread nD τ)))
    (hG0 : G 0 = V' c main_arg1) (hG1 : G 1 = V' c main_arg1) (hG2 : G 2 = V' c main_v4)
    (hrest : ∀ b, b ∉ Finset.univ.image (Pipeline.arrRef spec1) → V' c b = V c b) :
    iprop((dat1 V c).arrays G ∗ Pipeline.unscopedRest spec1 c (V c))
      ⊢ (unscopedBufs (Ix := Unit) (Name := ℕ) (U := UR sig nD τ) (Lvl := ℕ) c (V' c) : sProp 𝕄) := by
  rw [Pipeline.unscopedBufs_split₀ (cfgs := cfgs) (p := (1 : Fin 3)) winFacts₀1.arr_unscoped c (V' c), arrays1_eq, hG0, hG1, hG2]
  refine sep_mono ?_ (Entails.of_eq ?_)
  · rw [arrBufs1_eq]
    iintro ⟨Ha₁, Ha₂, Ho⟩
    isplitl [Ha₁ Ha₂]
    · iapply (pointsTo_share (PosShare.mem_left_op_right fullShare)).2
      isplitl [Ha₁] <;> iassumption
    iexact Ho
  · unfold Pipeline.unscopedRest
    exact bigSep_congr fun b hb => by rw [hrest b (Finset.mem_sdiff.mp hb).2]

end Cert.KernelIdeal.Hand

end
-- ==== Proof.KISegs.lean ====
import proofs.«169877_j27968827031704_1_alg».proof.Proof.KIRegion0
import proofs.«169877_j27968827031704_1_alg».proof.Proof.KIRegion1
import proofs.«169877_j27968827031704_1_alg».proof.Proof.KIRegion2
import proofs.«169877_j27968827031704_1_alg».proof.Proof.KIShare0
import proofs.«169877_j27968827031704_1_alg».proof.Proof.KIShare1
import proofs.«169877_j27968827031704_1_alg».proof.Proof.Gen.KernelIdeal.Regions
import Idealize.ShloMosaic.Lib.Pipeline.RegionsLoop
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! # The whole run: three launches among stretches of host operations

The unscoped buffers' contents are followed through the program: the launch contents, what launch 0 leaves in its
output array, the host operations after it, and so on. Each launch's proof data is taken at the contents it is
entered with. -/

/-! ## The contents between the items -/

/-- Launch 0 is entered with the launch contents. -/
abbrev Vin0 (c : Dev nD) (b : Ref sig .tc) : Buf (Elt F) ((c : Thread nD τ).loc b) := V0 m c b
/-- What launch 0 leaves in its output array: the last write-back's block. -/
def res0 (c : Dev nD) : Buf (Elt F) ((c : Thread nD τ).loc main_v0) := (dat0 (Vin0 m) c).arrAt 2 cfg0.N
/-- The launches' results so far: launch 0's. -/
def outsA : Outs (F := F) := fun J r c => match J with
  | 1 => Function.update (V0 m c) main_v0 (res0 m c) r
  | _ => V0 m c r
/-- Launch 1 is entered with the contents after the first stretch of host operations. -/
abbrev Vin1 (c : Dev nD) (b : Ref sig .tc) : Buf (Elt F) ((c : Thread nD τ).loc b) := V2 m (outsA m) c b
def res1 (c : Dev nD) : Buf (Elt F) ((c : Thread nD τ).loc main_v4) := (dat1 (Vin1 m) c).arrAt 2 cfg1.N
/-- The launches' results so far: launch 0's and launch 1's. -/
def outsB : Outs (F := F) := fun J r c => match J with
  | 1 => Function.update (V0 m c) main_v0 (res0 m c) r
  | 3 => Function.update (V0 m c) main_v4 (res1 m c) r
  | _ => V0 m c r
/-- Launch 2 is entered with the contents after the second stretch of host operations. -/
abbrev Vin2 (c : Dev nD) (b : Ref sig .tc) : Buf (Elt F) ((c : Thread nD τ).loc b) := V4 m (outsB m) c b
def res2 (c : Dev nD) : Buf (Elt F) ((c : Thread nD τ).loc main_v8) := (dat2 (Vin2 m) c).arrAt 2 cfg2.N
/-- All three launches' results. -/
def outs : Outs (F := F) := fun J r c => match J with
  | 1 => Function.update (V0 m c) main_v0 (res0 m c) r
  | 3 => Function.update (V0 m c) main_v4 (res1 m c) r
  | 5 => Function.update (V0 m c) main_v8 (res2 m c) r
  | _ => V0 m c r

theorem outs_1 (c : Dev nD) : outs m 1 main_v0 c = res0 m c := by
  show Function.update (V0 m c) main_v0 (res0 m c) main_v0 = _
  exact Function.update_self ..
theorem outs_3 (c : Dev nD) : outs m 3 main_v4 c = res1 m c := by
  show Function.update (V0 m c) main_v4 (res1 m c) main_v4 = _
  exact Function.update_self ..
theorem outs_5 (c : Dev nD) : outs m 5 main_v8 c = res2 m c := by
  show Function.update (V0 m c) main_v8 (res2 m c) main_v8 = _
  exact Function.update_self ..

/-- The contents before launch 1 read only launch 0's result, -/
theorem V2_outs (c : Dev nD) : V2 m (outs m) c = V2 m (outsA m) c := rfl
/-- and those before launch 2 only the first two. -/
theorem V4_outs (c : Dev nD) : V4 m (outs m) c = V4 m (outsB m) c := rfl

/-! ## The proof data of all three launches -/

def pdats : (p : Fin 3) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c

/-- No core owes another anything: no level is assigned. -/
abbrev Lv : GSem nD τ sig → Finset Unit := fun _ => ∅
abbrev lvl : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)

/-! ## What a launch's exit contents are, array by array -/

theorem V1_arr (c : Dev nD) : V1 m (outs m) c main_arg0 = V0 m c main_arg0 := V1_of m (outs m) c main_arg0 (by decide)
theorem V1_out (c : Dev nD) : V1 m (outs m) c main_v0 = res0 m c := by
  show Function.update (V0 m c) main_v0 (outs m 1 main_v0 c) main_v0 = _
  rw [Function.update_self, outs_1]
theorem V3_arr (c : Dev nD) : V3 m (outs m) c main_arg1 = V2 m (outsA m) c main_arg1 := V3_of m (outs m) c main_arg1 (by decide)
theorem V3_out (c : Dev nD) : V3 m (outs m) c main_v4 = res1 m c := by
  show Function.update (V2 m (outs m) c) main_v4 (outs m 3 main_v4 c) main_v4 = _
  rw [Function.update_self, outs_3]
theorem V5_arr0 (c : Dev nD) : V5 m (outs m) c main_arg0 = V4 m (outsB m) c main_arg0 := V5_of m (outs m) c main_arg0 (by decide)
theorem V5_arr1 (c : Dev nD) : V5 m (outs m) c main_arg1 = V4 m (outsB m) c main_arg1 := V5_of m (outs m) c main_arg1 (by decide)
theorem V5_out (c : Dev nD) : V5 m (outs m) c main_v8 = res2 m c := by
  show Function.update (V4 m (outs m) c) main_v8 (outs m 5 main_v8 c) main_v8 = _
  rw [Function.update_self, outs_5]

/-- Off a launch's arrays the contents after it are the contents before it. -/
theorem V1_rest (c : Dev nD) (b : Ref sig .tc) (hb : b ∉ Finset.univ.image (Pipeline.arrRef spec0)) : V1 m (outs m) c b = V0 m c b :=
  V1_of m (outs m) c b fun h => hb (by rw [List.mem_singleton.mp h]; decide)
theorem V3_rest (c : Dev nD) (b : Ref sig .tc) (hb : b ∉ Finset.univ.image (Pipeline.arrRef spec1)) : V3 m (outs m) c b = V2 m (outsA m) c b :=
  V3_of m (outs m) c b fun h => hb (by rw [List.mem_singleton.mp h]; decide)
theorem V5_rest (c : Dev nD) (b : Ref sig .tc) (hb : b ∉ Finset.univ.image (Pipeline.arrRef spec2)) : V5 m (outs m) c b = V4 m (outsB m) c b :=
  V5_of m (outs m) c b fun h => hb (by rw [List.mem_singleton.mp h]; decide)

/-! ## The launches as segments -/

set_option backward.isDefEq.respectTransparency.types false in
/-- Launch 0 as a segment of the run: entered with every unscoped buffer at the contents before it, left with them
    at the contents after it. Its arrays are taken out of the unscoped buffers at entry and put back at exit with the
    output array at what the last write-back left; the generator register rides through the launch's invariant. -/
def reg0 : Pipeline.RegionSeg (pcfgs (F := F)) adm (pdats m) () defs₀ Variants.none Lv lvl 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ Lv lvl 0 fun _ _ => rfl
  pre c := iprop(StableHlo.held (c : Thread nD τ) (Pipeline.ucRefs τ sig) (V0 m c) ∗ Rest c)
  post c := iprop(StableHlo.held (c : Thread nD τ) (Pipeline.ucRefs τ sig) (V1 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (StableHlo.held (c : Thread nD τ) (Pipeline.ucRefs τ sig) (V0 m c) : sProp 𝕄)
        ⊢ iprop((pdats m 0 c).arrays ((pdats m 0 c).arrAt · 0) ∗ Pipeline.unscopedRest spec0 c (Vin0 m c)) := by
      rw [← Pipeline.unscopedBufs_held]
      exact entry0 (Vin0 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Vin0 m c))
        ⊢ (StableHlo.held (c : Thread nD τ) (Pipeline.ucRefs τ sig) (V1 m (outs m) c) : sProp 𝕄) := by
      rw [← Pipeline.unscopedBufs_held]
      exact exit0 (Vin0 m) (fun c b => V1 m (outs m) c b) c ((pdats m 0 c).arrAt · cfg0.N)
        (((dat0 (Vin0 m) c).arrAt_in 0 rfl _).trans (V1_arr m c).symm) (((dat0 (Vin0 m) c).arrAt_in 1 rfl _).trans (V1_arr m c).symm)
        (V1_out m c).symm (V1_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment of the run: entered with every unscoped buffer at the contents before it, left with them
    at the contents after it. Its arrays are taken out of the unscoped buffers at entry and put back at exit with the
    output array at what the last write-back left; the generator register rides through the launch's invariant. -/
def reg1 : Pipeline.RegionSeg (pcfgs (F := F)) adm (pdats m) () defs₀ Variants.none Lv lvl 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ Lv lvl 1 fun _ _ => rfl
  pre c := iprop(StableHlo.held (c : Thread nD τ) (Pipeline.ucRefs τ sig) (V2 m (outsA m) c) ∗ Rest c)
  post c := iprop(StableHlo.held (c : Thread nD τ) (Pipeline.ucRefs τ sig) (V3 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit : (StableHlo.held (c : Thread nD τ) (Pipeline.ucRefs τ sig) (V2 m (outsA m) c) : sProp 𝕄)
        ⊢ iprop((pdats m 1 c).arrays ((pdats m 1 c).arrAt · 0) ∗ Pipeline.unscopedRest spec1 c (Vin1 m c)) := by
      rw [← Pipeline.unscopedBufs_held]
      exact entry1 (Vin1 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vin1 m c))
        ⊢ (StableHlo.held (c : Thread nD τ) (Pipeline.ucRefs τ sig) (V3 m (outs m) c) : sProp 𝕄) := by
      rw [← Pipeline.unscopedBufs_held]
      exact exit1 (Vin1 m) (fun c b => V3 m (outs m) c b) c ((pdats m 1 c).arrAt · cfg1.N)
        (((dat1 (Vin1 m) c).arrAt_in 0 rfl _).trans (V3_arr m c).symm) (((dat1 (Vin1 m) c).arrAt_in 1 rfl _).trans (V3_arr m c).symm)
        (V3_out m c).symm (V3_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment of the run: entered with every unscoped buffer at the contents before it, left with them
    at the contents after it. Its arrays are taken out of the unscoped buffers at entry and put back at exit with the
    output array at what the last write-back left; the generator register rides through the launch's invariant. -/
def reg2 : Pipeline.RegionSeg (pcfgs (F := F)) adm (pdats m) () defs₀ Variants.none Lv lvl 2 where
  win := launch2.win.to₀
  block_pos := block_pos2
  stage_whole := stage_whole2
  K := PEmpty
  osem k := k.elim
  ho := Pipeline.OwnSemFacts.none _
  hbody c := (body_obligation2 (Vin2 m) c).loose
  hwaits := Pipeline.hwaits_of_owed_zero _ _ _ _ Lv lvl 2 fun _ _ => rfl
  pre c := iprop(StableHlo.held (c : Thread nD τ) (Pipeline.ucRefs τ sig) (V4 m (outsB m) c) ∗ Rest c)
  post c := iprop(StableHlo.held (c : Thread nD τ) (Pipeline.ucRefs τ sig) (V5 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit : (StableHlo.held (c : Thread nD τ) (Pipeline.ucRefs τ sig) (V4 m (outsB m) c) : sProp 𝕄)
        ⊢ iprop((pdats m 2 c).arrays ((pdats m 2 c).arrAt · 0) ∗ Pipeline.unscopedRest spec2 c (Vin2 m c)) := by
      rw [← Pipeline.unscopedBufs_held]
      exact Pipeline.arrays_of_unscopedBufs (p := 2) (pcfgs (F := F)) adm (pdats m) launch2.win launch2.arr_whole c
        ((pdats m 2 c).share_full fun _ => rfl) (Vin2 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (Vin2 m c))
        ⊢ (StableHlo.held (c : Thread nD τ) (Pipeline.ucRefs τ sig) (V5 m (outs m) c) : sProp 𝕄) := by
      rw [← Pipeline.unscopedBufs_held]
      exact Pipeline.unscopedBufs_of_arrays (p := 2) (pcfgs (F := F)) adm (Ix := Unit) (Name := ℕ) (U := UR sig nD τ) (Lvl := ℕ)
        launch2.win launch2.arr_whole c (pdats m) ((pdats m 2 c).share_full fun _ => rfl)
        (Vin2 m c) (fun b => V5 m (outs m) c b) ((pdats m 2 c).arrAt · cfg2.N)
        (fun w => match w with
          | ⟨0, _⟩ => ((dat2 (Vin2 m) c).arrAt_in 0 rfl _).trans (V5_arr0 m c).symm
          | ⟨1, _⟩ => ((dat2 (Vin2 m) c).arrAt_in 1 rfl _).trans (V5_arr1 m c).symm
          | ⟨2, _⟩ => (V5_out m c).symm)
        (V5_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- The run of the whole program, given the three launches' records: every weakly fair execution from memory m
    with zero counters terminates, and the final memory holds the result buffer at the last valuation of the chain
    (the launch contents pushed through the three launches' results and the host operations between and after
    them) and each argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => ∀ c : Dev nD,
      r.2.mem ((c.tc : Thread nD τ).loc main_v14) = V6 m outs c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨hpre0 c, hpost0 c, hpre1 c, hpost1 c, hpre2 c, hpost2 c, sep_mono .rfl (hE3 c)⟩)
    (hinit := ?_) (QY := fun c s => s.mem ((c.tc : Thread nD τ).loc main_v14) = V6 m outs c main_v14 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers at the launch contents; the rest makes the first thread state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c)⟩
    · iexact HSI

set_option backward.isDefEq.respectTransparency.types false in
/-- THE RUN: from any memory with zero counters every weakly fair execution of the program terminates, nothing
    faulting; the result buffer ends at the chain's last contents and the argument arrays as launched. -/
theorem run_main (ρ : Dev nD → PrngReg) :
    θ_run defs (onTc (τ := τ) (main (F := F))) ⟨m, fun _ => 0, ρ⟩ (fun r => ∀ c : Dev nD,
      r.2.mem ((c.tc : Thread nD τ).loc main_v14) = V6 m (outs m) c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (Ix := Unit) (U := UR sig nD τ) (Lvl := ℕ) emb₁ () Variants.none Lv lvl (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => Rest)
    (hE0 := by
      refine Pipeline.initEach Lv lvl fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun _ => .rfl) (hpost0 := fun _ => .rfl)
    (R1 := reg1 m) (hpre1 := fun c => by rw [V2_outs]; exact .rfl) (hpost1 := fun _ => .rfl)
    (R2 := reg2 m) (hpre2 := fun c => by rw [V4_outs]; exact .rfl) (hpost2 := fun _ => .rfl)

end Cert.KernelIdeal.Hand

end
-- ==== Proof.Spec.lean ====
import Idealize.ShloMosaic.PureOps.Ideal
import Idealize.ShloMosaic.Lib.ValueIdx

/-! The maximum-mean-discrepancy statistic with a Gaussian kernel, on the extended reals. For two
    4096 × 1024 arrays x and y the Gram entry of row n of x and row m of y is
    exp ((|x_n|² + |y_m|² − 2 ⟨x_n, y_m⟩) · (−1/32)); rbfSum x y is the sum of all 4096² entries; and
    mmd x y = rbfSum x x / 4096² + rbfSum y y / 4096² − 2 · (rbfSum x y / 4096²).
    The float literals are kept as the binary words the programs spell. -/

noncomputable section

open scoped BigOperators

namespace Cert.Mmd

open Idealize.ShloMosaic Idealize.ShloMosaic.ValueIdx

/-- A 4096 × 1024 array of extended reals. -/
abbrev Mat : Type := (⟨2, ![4096, 1024]⟩ : Shape).Idx → EReal

/-- The literal 2.0. -/
def two : EReal := Ideal.ofBits .f32 0x40000000#32
/-- The literal -0.03125 = -1/32, the negated reciprocal bandwidth. -/
def negInvSigma : EReal := Ideal.ofBits .f32 0xBD000000#32
/-- The number of Gram entries, 4096 · 4096, as the product of the two literals 4096.0. -/
def count : EReal := Ideal.ofBits .f32 0x45800000#32 * Ideal.ofBits .f32 0x45800000#32

/-- The squared Euclidean norm of row n. -/
def sqNorm (x : Mat) (n : Fin 4096) : EReal := ∑ d : Fin 1024, x (ix2 n d) * x (ix2 n d)
/-- The inner product of row n of x with row m of y. -/
def inner (x y : Mat) (n m : Fin 4096) : EReal := ∑ d : Fin 1024, x (ix2 n d) * y (ix2 m d)
/-- The Gaussian kernel of the two rows, through the expanded squared distance. -/
def rbf (x y : Mat) (n m : Fin 4096) : EReal :=
  Ideal.exp ((sqNorm x n + sqNorm y m - two * inner x y n m) * negInvSigma)
/-- The sum of the whole Gram matrix. -/
def rbfSum (x y : Mat) : EReal := ∑ n : Fin 4096, ∑ m : Fin 4096, rbf x y n m
/-- The biased estimator: mean of k(x,x) plus mean of k(y,y) minus twice the mean of k(x,y). -/
def mmd (x y : Mat) : EReal :=
  Ideal.div (rbfSum x x) count + Ideal.div (rbfSum y y) count - two * Ideal.div (rbfSum x y) count

end Cert.Mmd

end
-- ==== Proof.TilePayload.lean ====
import proofs.«169877_j27968827031704_1_alg».proof.Proof.Gen.KernelIdeal.Skeleton
import proofs.«169877_j27968827031704_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! The arithmetic of one 1024 × 1024 tile of the Gram matrix, on the extended reals. From a block x of 1024 rows
    and a block y of 1024 rows, each row of length 1024, the tile's entry (p, q) is
    exp ((|x_p|² + |y_q|² − 2 ⟨x_p, y_q⟩) · (−1/32)): the squared norms are sums of squares along a row, kept once
    as a column and once as a row and spread over the tile; the inner products are the product of x with the
    transpose of y, the narrowing of the operands being the identity on extended reals. The value written back
    is the running total plus the sum of all 1024² entries, taken first along each row and then down the column
    of row sums; the first value written is zero. -/

noncomputable section

open scoped BigOperators

namespace Cert.KernelIdeal.TileValue

open Cert.KernelIdeal Cert.KernelIdeal.Gen Idealize.ShloMosaic Idealize.ShloMosaic.ValueIdx

/-! ## Sums along one axis, and the unit-axis layouts, read at coordinates -/

/-- The sum over the columns of a 1024 x 1024 block, at row p. -/
theorem rowSum_apply (x : FVec Ideal S1024x1024 .f32) (acc : BitVec 32) (h : S1024x1024.Reduces [1] S1024)
    (hf : FKind.Formats .f32) (hacc : acc = FKind.add.neutral .f32 hf) (p : Fin 1024) :
    multiReduction (F := Ideal) .add [1] S1024 x acc h hf hacc (ix1 p) = ∑ d : Fin 1024, x (ix2 p d) := by
  refine (Ideal.multiReduction_add_single x acc h hf hacc (ix1 p)).trans ?_
  refine Finset.sum_congr rfl fun d _ => congrArg x ?_
  funext a
  match a with
  | ⟨0, _⟩ => rfl
  | ⟨1, _⟩ => rfl

/-- The sum over the rows of a 1024 x 1 column, at its one column u. -/
theorem colSum_apply (x : FVec Ideal S1024x1 .f32) (acc : BitVec 32) (h : S1024x1.Reduces [0] S1)
    (hf : FKind.Formats .f32) (hacc : acc = FKind.add.neutral .f32 hf) (u : Fin 1) :
    multiReduction (F := Ideal) .add [0] S1 x acc h hf hacc (ix1 u) = ∑ p : Fin 1024, x (ix2 p u) := by
  refine (Ideal.multiReduction_add_single x acc h hf hacc (ix1 u)).trans ?_
  refine Finset.sum_congr rfl fun p _ => congrArg x ?_
  funext a
  match a with
  | ⟨0, _⟩ => rfl
  | ⟨1, _⟩ => rfl

/-- A length-a vector viewed as an a x 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 column broadcast over b columns reads, at (i, c), the column at i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The product of one block with the transpose of the other -/

/-- The block product contracts the left operand's axis 1 with the right operand's axis 0. At output index i and
    contraction position q the left operand is read at (i 0, q) ... -/
theorem lhs_dot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_dot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- ... and the right operand at (q, i 1). -/
theorem rhs_dot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_dot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into the zero accumulator, at (p, q): the sum over d of the left operand at (p, d) times the
    right operand at (d, q). -/
theorem blockDot_apply {f1 f2 : FTy} (l : FVec Ideal S1024x1024 f1) (r : FVec Ideal S1024x1024 f2) (p q : Fin 1024) :
    matmul dot_S1024x1024_S1024x1024_S1024x1024_1_0_0_1_n_n none l r (constant (F := Ideal) S1024x1024 .f32 0x00000000#32) (ix2 p q)
      = ∑ d : Fin 1024, l (ix2 p d) * r (ix2 d q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-! ## The Gaussian kernel of two rows, and the two values a tile writes -/

/-- The Gaussian kernel of row p of the first block and row q of the second, through the expanded squared
    distance: exp ((|x_p|² + |y_q|² − 2 ⟨x_p, y_q⟩) · (−1/32)). -/
def tileRbf (v5 v6 : FVec Ideal S1024x1024 .f32) (p q : Fin 1024) : EReal :=
  Ideal.exp (((∑ d : Fin 1024, v5 (ix2 p d) * v5 (ix2 p d)) + (∑ d : Fin 1024, v6 (ix2 q d) * v6 (ix2 q d))
    - Cert.Mmd.two * ∑ d : Fin 1024, v5 (ix2 p d) * v6 (ix2 q d)) * Cert.Mmd.negInvSigma)

/-- The squared norms of the rows, kept as a column and spread over the columns: at (p, q) the squared norm of row p. -/
theorem normCol_apply (x : FVec Ideal S1024x1024 .f32) (acc : BitVec 32) (h : S1024x1024.Reduces [1] S1024)
    (hf : FKind.Formats .f32) (hacc : acc = FKind.add.neutral .f32 hf) (hc : S1024.ShapeCasts S1024x1)
    (hb : S1024x1.Broadcasts S1024x1024) (p q : Fin 1024) :
    broadcastTo S1024x1024 (shapeCast S1024x1 (multiReduction (F := Ideal) .add [1] S1024 (mulf x x) acc h hf hacc) hc) hb (ix2 p q)
      = ∑ d : Fin 1024, x (ix2 p d) * x (ix2 p d) := by
  refine (broadcastTo_a1_ab_apply _ hb p q).trans ?_
  refine (shapeCast_a_a1_apply _ hc p 0).trans ?_
  exact rowSum_apply (mulf x x) acc h hf hacc p

/-- The squared norms of the rows, kept as a row and spread over the rows: at (p, q) the squared norm of row q. -/
theorem normRow_apply (x : FVec Ideal S1024x1024 .f32) (acc : BitVec 32) (h : S1024x1024.Reduces [1] S1024)
    (hf : FKind.Formats .f32) (hacc : acc = FKind.add.neutral .f32 hf) (hc : S1024.ShapeCasts S1x1024)
    (hb : S1x1024.Broadcasts S1024x1024) (p q : Fin 1024) :
    broadcastTo S1024x1024 (shapeCast S1x1024 (multiReduction (F := Ideal) .add [1] S1024 (mulf x x) acc h hf hacc) hc) hb (ix2 p q)
      = ∑ d : Fin 1024, x (ix2 q d) * x (ix2 q d) := by
  refine (broadcastTo_1b_ab_apply _ hb p q).trans ?_
  refine (shapeCast_a_1a_apply _ hc 0 q).trans ?_
  exact rowSum_apply (mulf x x) acc h hf hacc q

/-- The product of the first block with the transpose of the second, both narrowed (the identity on extended
    reals): at (p, q) the inner product of row p of the first with row q of the second. -/
theorem cross_apply (x y : FVec Ideal S1024x1024 .f32) (hlt : FTy.bits .bf16 < FTy.bits .f32)
    (ht : S1024x1024.Transposes [1, 0] S1024x1024) (p q : Fin 1024) :
    matmul dot_S1024x1024_S1024x1024_S1024x1024_1_0_0_1_n_n none (truncf .bf16 x hlt)
        (transpose S1024x1024 [1, 0] (truncf .bf16 y hlt) ht) (constant (F := Ideal) S1024x1024 .f32 0x00000000#32) (ix2 p q)
      = ∑ d : Fin 1024, x (ix2 p d) * y (ix2 q d) := by
  refine (blockDot_apply _ _ p q).trans ?_
  refine Finset.sum_congr rfl fun d _ => ?_
  exact congrArg (x (ix2 p d) * ·) (transpose_ix2_apply (truncf .bf16 y hlt) ht d q)

/-- The pointwise part: (a + b − 2 c) · (−1/32), exponentiated, at an index. -/
theorem rbf_pointwise {s : Shape} (A B C : FVec Ideal s .f32) (i : s.Idx) :
    exp (mulf (subf (addf A B) (mulf (broadcast s (Scalar.ofBits (F := Ideal) .f32 0x40000000#32)) C))
        (broadcast s (Scalar.ofBits (F := Ideal) .f32 0xBD000000#32))) i
      = Ideal.exp ((A i + B i - Cert.Mmd.two * C i) * Cert.Mmd.negInvSigma) := rfl

/-- The first value written, the reset of the running total: zero. -/
theorem k0_pay1_apply (j : S1x1.Idx) : Gen.k0_pay1 (F := Ideal) j = 0 := by
  unfold Gen.k0_pay1
  exact Ideal.ofBits_zero_f32

/-- The second value written: the running total plus the sum over the tile of the Gaussian kernel of its rows. -/
theorem k0_pay2_apply (v5 v6 : Vec Ideal S1024x1024 .f32) (v30 : Vec Ideal S1x1 .f32) (j : S1x1.Idx) :
    Gen.k0_pay2 (F := Ideal) v5 v6 v30 j = v30 j + ∑ p : Fin 1024, ∑ q : Fin 1024, tileRbf v5 v6 p q := by
  obtain ⟨a, b, rfl⟩ : ∃ (a : Fin 1) (b : Fin 1), j = ix2 a b := ⟨j 0, j 1, eq_ix2 j⟩
  unfold Gen.k0_pay2
  refine (addf_apply _ _ _).trans ?_
  refine congr (congrArg HAdd.hAdd ?_) ?_
  · exact congrFun (shapeCast_self v30 _) _
  · refine (shapeCast_a_1a_apply _ _ a b).trans ?_
    refine (colSum_apply _ _ _ _ _ b).trans ?_
    refine Finset.sum_congr rfl fun p _ => ?_
    refine (shapeCast_a_a1_apply _ _ p b).trans ?_
    refine (rowSum_apply _ _ _ _ _ p).trans ?_
    refine Finset.sum_congr rfl fun q _ => ?_
    refine (rbf_pointwise _ _ _ (ix2 p q)).trans ?_
    exact congrArg Ideal.exp (congrArg (· * Cert.Mmd.negInvSigma)
      (congr (congrArg HSub.hSub (congr (congrArg HAdd.hAdd (normCol_apply v5 _ _ _ _ _ _ p q))
          (normRow_apply v6 _ _ _ _ _ _ p q)))
        (congrArg (Cert.Mmd.two * ·) (cross_apply v5 v6 _ _ p q))))

/-- The three launches spell the same two values. -/
theorem k1_pay1_eq : @Gen.k1_pay1 = @Gen.k0_pay1 := rfl
theorem k2_pay1_eq : @Gen.k2_pay1 = @Gen.k0_pay1 := rfl
theorem k1_pay2_eq : @Gen.k1_pay2 = @Gen.k0_pay2 := rfl
theorem k2_pay2_eq : @Gen.k2_pay2 = @Gen.k0_pay2 := rfl

end Cert.KernelIdeal.TileValue

end
-- ==== Proof.TileSum.lean ====
import Idealize.ShloMosaic.PureOps.Ideal
import Mathlib.Algebra.BigOperators.Fin
import Mathlib.Algebra.BigOperators.Group.Finset.Basic

/-! Two facts about finite sums in the extended reals, an additive commutative monoid.
    The sixteen 1024 × 1024 tiles, tile t at block row t / 4 and block column t % 4, cover the
    4096 × 4096 square exactly once; and a running sum that starts at 0 + g 0 and adds g (n + 1)
    at step n + 1 is the partial sum of g. -/

noncomputable section

open scoped BigOperators

namespace Cert.Mmd

/-- A pair (block, offset) names the position block · 1024 + offset below 4096. -/
def blockEquiv : Fin 4 × Fin 1024 ≃ Fin 4096 where
  toFun x := ⟨x.1.val * 1024 + x.2.val, by omega⟩
  invFun n := (⟨n.val / 1024, by omega⟩, ⟨n.val % 1024, by omega⟩)
  left_inv := by
    rintro ⟨a, p⟩
    ext
    · show (a.val * 1024 + p.val) / 1024 = a.val
      omega
    · show (a.val * 1024 + p.val) % 1024 = p.val
      omega
  right_inv := by
    intro n
    ext
    show n.val / 1024 * 1024 + n.val % 1024 = n.val
    omega

/-- A tile number below 16 is a pair (block row, block column) = (t / 4, t % 4). -/
def tileEquiv : Fin 16 ≃ Fin 4 × Fin 4 where
  toFun t := (⟨t.val / 4, by omega⟩, ⟨t.val % 4, by omega⟩)
  invFun x := ⟨x.1.val * 4 + x.2.val, by omega⟩
  left_inv := by
    intro t
    ext
    show t.val / 4 * 4 + t.val % 4 = t.val
    omega
  right_inv := by
    rintro ⟨a, b⟩
    ext
    · show (a.val * 4 + b.val) / 4 = a.val
      omega
    · show (a.val * 4 + b.val) % 4 = b.val
      omega

/-- A sum over 4096 positions is the sum over the 4 blocks of the sums over the 1024 offsets. -/
theorem sum_block (g : Fin 4096 → EReal) :
    ∑ n : Fin 4096, g n
      = ∑ a : Fin 4, ∑ p : Fin 1024, g ⟨a.val * 1024 + p.val, by omega⟩ := by
  rw [← Fintype.sum_prod_type']
  exact (Fintype.sum_equiv blockEquiv _ _ (fun _ => rfl)).symm

/-- A sum over 16 tiles is the sum over block rows of the sums over block columns. -/
theorem sum_tile (G : Fin 4 → Fin 4 → EReal) :
    ∑ t : Fin 16, G ⟨t.val / 4, by omega⟩ ⟨t.val % 4, by omega⟩ = ∑ a : Fin 4, ∑ b : Fin 4, G a b := by
  rw [← Fintype.sum_prod_type']
  exact Fintype.sum_equiv tileEquiv _ _ (fun _ => rfl)

/-- The sixteen tiles cover the square exactly once. -/
theorem tile_sum (f : Fin 4096 → Fin 4096 → EReal) :
    (∑ t : Fin 16, ∑ p : Fin 1024, ∑ q : Fin 1024,
        f ⟨t.val / 4 * 1024 + p.val, by omega⟩ ⟨t.val % 4 * 1024 + q.val, by omega⟩)
      = ∑ n : Fin 4096, ∑ m : Fin 4096, f n m := by
  have hL := sum_tile (fun a b => ∑ p : Fin 1024, ∑ q : Fin 1024,
      f ⟨a.val * 1024 + p.val, by omega⟩ ⟨b.val * 1024 + q.val, by omega⟩)
  refine hL.trans ?_
  rw [sum_block (fun n => ∑ m : Fin 4096, f n m)]
  refine Finset.sum_congr rfl (fun a _ => ?_)
  rw [Finset.sum_comm]
  refine Finset.sum_congr rfl (fun p _ => ?_)
  exact (sum_block (fun m => f ⟨a.val * 1024 + p.val, by omega⟩ m)).symm

/-- A running sum started at 0 + g 0 that adds g (n + 1) at step n + 1 is the partial sum of g. -/
theorem acc_sum (g : ℕ → EReal) (acc : ℕ → EReal) (h0 : acc 0 = 0 + g 0)
    (hs : ∀ n, acc (n + 1) = acc n + g (n + 1)) (n : ℕ) :
    acc n = ∑ k ∈ Finset.range (n + 1), g k := by
  induction n with
  | zero => rw [h0, zero_add, Finset.sum_range_one]
  | succ n ih => rw [hs, ih, Finset.sum_range_succ _ (n + 1)]

/-- After the sixteenth step the running sum is the sum over the sixteen tiles. -/
theorem acc_sum_fin16 (g : ℕ → EReal) (acc : ℕ → EReal) (h0 : acc 0 = 0 + g 0)
    (hs : ∀ n, acc (n + 1) = acc n + g (n + 1)) :
    acc 15 = ∑ t : Fin 16, g t.val :=
  (acc_sum g acc h0 hs 15).trans (Finset.sum_range g)

end Cert.Mmd

end
-- ==== Proof.KIValue0.lean ====
import proofs.«169877_j27968827031704_1_alg».proof.Proof.KIRegion0
import proofs.«169877_j27968827031704_1_alg».proof.Proof.TilePayload
import proofs.«169877_j27968827031704_1_alg».proof.Proof.TileSum
import proofs.«169877_j27968827031704_1_alg».proof.Proof.Spec
import Idealize.ShloMosaic.Lib.Pipeline.Value
import Idealize.ShloMosaic.Lib.ValueIdx
import Idealize.ShloMosaic.Lib.Tactic

/-! What launch 0 leaves in its one-element output array, on the extended reals: the sum of the whole Gram
    matrix of its two windowed arrays. The grid's sixteen points run over the 1024 × 1024 tiles of the
    4096 × 4096 matrix, point t at block row t / 4 and block column t % 4. The first point stores zero and
    then zero plus its tile's sum; each later point stores the running total plus its tile's sum; the block is
    written back after the last point only, and it is the whole array. So the array ends at the sum over the
    sixteen tiles of the tile sums, and the tiles cover the matrix exactly once. -/

set_option maxRecDepth 16384

noncomputable section

open scoped BigOperators

namespace Cert.KernelIdeal.HandValue

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.KernelIdeal.Hand

/-! ## What each case of the body leaves in the accumulator block, for any float values -/

section
variable {F : FTy → Type} [FloatOps F]

/-- Every store and load of the body is at offset zero on both axes. -/
theorem hz0 : (![0, 0] : Fin 2 → Nat) = fun _ => 0 := funext fun a => by fin_cases a <;> rfl

/-- A later point: one store covers the block, its value computed from the two input blocks and from what the
    block held. -/
theorem outRest0_eq (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset0 i) (x0 x1 : Vec F S1024x1024 .f32) (xo : Vec F S1x1 .f32) :
    outRest0 c i arg2 harg2 arg3 harg3 arg4 harg4 hc x0 x1 xo = k0_pay2 x0 x1 xo := by
  unfold outRest0
  rw [View.read_writes_eq_canon _ _ _ (coverRest0 c i arg2 harg2 arg3 harg3 arg4 harg4 hc x0 x1 xo)]
  unfold runRest0
  dsimp only
  sl_unfold_words
  rw [View.canon_unit_zero hz0]
  simp only [View.readAt_eq_ld, harg2.read_unread, harg3.read_unread, harg4.read_unread,
    View.ld_unit_zero (S := S1024x1024) hz0, View.ld_unit_zero (S := S1x1) hz0]

/-- The first point: the reset value is stored, read back, and the second store covers it with the value computed
    from the two input blocks and the reset value. -/
theorem outFirst0_eq (c : Dev nD) (i : grid0.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset0 i) (x0 x1 : Vec F S1024x1024 .f32) :
    outFirst0 c i arg2 harg2 arg3 harg3 arg4 harg4 hc x0 x1 = k0_pay2 x0 x1 (k0_pay1 (F := F)) := by
  unfold outFirst0
  rw [View.read_writes_eq_canon _ _ _ (coverFirst0 c i arg2 harg2 arg3 harg3 arg4 harg4 hc x0 x1)]
  unfold runFirst0
  dsimp only
  sl_unfold_words
  rw [View.canon_cons_unit_zero (S := S1x1) hz0, View.readCov_unit_zero (S := S1x1) _ hz0]
  simp only [View.readAt_eq_ld, harg2.read_unread, harg3.read_unread,
    View.ld_unit_zero (S := S1024x1024) hz0]

end

/-! ## The blocks, read at coordinates -/

variable (V : (c : Dev nD) → (b : Ref sig .tc) → Buf (Elt Ideal) ((c : Thread nD τ).loc b))

/-- The two windowed arrays, as 4096 × 1024 arrays of extended reals. -/
abbrev arrL0 (c : Dev nD) : Cert.Mmd.Mat := V c (Pipeline.arrRef spec0 0)
abbrev arrR0 (c : Dev nD) : Cert.Mmd.Mat := V c (Pipeline.arrRef spec0 1)
/-- The two input blocks at a point, as 1024 × 1024 arrays of extended reals. -/
abbrev blkL0 (c : Dev nD) (t : Fin cfg0.N) : Vec Ideal S1024x1024 .f32 := blk0 V c 0 t
abbrev blkR0 (c : Dev nD) (t : Fin cfg0.N) : Vec Ideal S1024x1024 .f32 := blk0 V c 1 t

/-- The block indices over the 4 × 4 row-major grid: the left window follows the block row t / 4, the right
    window the block column t % 4, both at column block zero. -/
theorem idx_facts0 : ∀ t : Fin cfg0.N, win0_0.index t 0 = t.val / 4 ∧ win0_0.index t 1 = 0
      ∧ win0_1.index t 0 = t.val % 4 ∧ win0_1.index t 1 = 0 :=
  (by decide +kernel : ∀ t : Fin grid0.N, win0_0.index t 0 = t.val / 4 ∧ win0_0.index t 1 = 0
      ∧ win0_1.index t 0 = t.val % 4 ∧ win0_1.index t 1 = 0)

/-- Row p of the left block at point t is row (t / 4) · 1024 + p of the left array. -/
theorem blkL0_apply (c : Dev nD) (t : Fin cfg0.N) (p d : Fin 1024) (hp : t.val / 4 * 1024 + p.val < 4096) :
    blkL0 V c t (ix2 p d) = arrL0 V c (ix2 ⟨t.val / 4 * 1024 + p.val, hp⟩ d) := by
  unfold blkL0 blk0
  rw [View.read_apply]
  show arrL0 V c (((cfg0.win 0).blk t).view.emb (ix2 p d)) = _
  refine congrArg (arrL0 V c) ?_
  funext a
  apply Fin.ext
  match a with
  | ⟨0, _⟩ =>
    show win0_0.index t 0 * 1024 + 1 * p.val = t.val / 4 * 1024 + p.val
    rw [(idx_facts0 t).1]; omega
  | ⟨1, _⟩ =>
    show win0_0.index t 1 * 1024 + 1 * d.val = d.val
    rw [(idx_facts0 t).2.1]; omega

/-- Row q of the right block at point t is row (t % 4) · 1024 + q of the right array. -/
theorem blkR0_apply (c : Dev nD) (t : Fin cfg0.N) (q d : Fin 1024) (hq : t.val % 4 * 1024 + q.val < 4096) :
    blkR0 V c t (ix2 q d) = arrR0 V c (ix2 ⟨t.val % 4 * 1024 + q.val, hq⟩ d) := by
  unfold blkR0 blk0
  rw [View.read_apply]
  show arrR0 V c (((cfg0.win 1).blk t).view.emb (ix2 q d)) = _
  refine congrArg (arrR0 V c) ?_
  funext a
  apply Fin.ext
  match a with
  | ⟨0, _⟩ =>
    show win0_1.index t 0 * 1024 + 1 * q.val = t.val % 4 * 1024 + q.val
    rw [(idx_facts0 t).2.2.1]; omega
  | ⟨1, _⟩ =>
    show win0_1.index t 1 * 1024 + 1 * d.val = d.val
    rw [(idx_facts0 t).2.2.2]; omega

/-! ## The two values a point writes, on the extended reals -/

/-- The reset value is zero. -/
theorem payReset0 (j : S1x1.Idx) : k0_pay1 (F := Ideal) j = 0 := TileValue.k0_pay1_apply j

/-- The value a point stores is what the block held plus the sum of the Gaussian kernel over the tile. -/
theorem payAdd0 (v5 v6 : Vec Ideal S1024x1024 .f32) (v30 : Vec Ideal S1x1 .f32) (j : S1x1.Idx) :
    k0_pay2 (F := Ideal) v5 v6 v30 j = v30 j + ∑ p : Fin 1024, ∑ q : Fin 1024, TileValue.tileRbf v5 v6 p q :=
  TileValue.k0_pay2_apply v5 v6 v30 j

/-! ## The running sum -/

/-- The sum of the Gaussian kernel over the tile of point k (zero past the grid). -/
def tileSum0 (c : Dev nD) (k : ℕ) : EReal :=
  if h : k < cfg0.N then ∑ p : Fin 1024, ∑ q : Fin 1024, TileValue.tileRbf (blkL0 V c ⟨k, h⟩) (blkR0 V c ⟨k, h⟩) p q else 0

theorem tileSum0_of_lt (c : Dev nD) (k : ℕ) (h : k < cfg0.N) :
    tileSum0 V c k = ∑ p : Fin 1024, ∑ q : Fin 1024, TileValue.tileRbf (blkL0 V c ⟨k, h⟩) (blkR0 V c ⟨k, h⟩) p q := by
  unfold tileSum0; exact dif_pos h

/-- After point n the accumulator block holds the sum of the tile sums of the points 0, …, n: the first point
    leaves 0 + its tile sum, each later point adds its own. -/
theorem accAt0_apply (c : Dev nD) (j : S1x1.Idx) : ∀ (n : ℕ) (hn : n < cfg0.N),
    accAt0 V c n hn j = ∑ k ∈ Finset.range (n + 1), tileSum0 V c k
  | 0, hn => by
    refine (congrFun (outFirst0_eq (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) ((reset0_iff ⟨0, hn⟩).mpr rfl) (blkL0 V c ⟨0, hn⟩) (blkR0 V c ⟨0, hn⟩)) j).trans ?_
    refine (payAdd0 (blkL0 V c ⟨0, hn⟩) (blkR0 V c ⟨0, hn⟩) (k0_pay1 (F := Ideal)) j).trans ?_
    rw [payReset0, zero_add, Finset.sum_range_one]
    exact (tileSum0_of_lt V c 0 hn).symm
  | n + 1, hn => by
    refine (congrFun (outRest0_eq (F := Ideal) c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (fun h => Nat.succ_ne_zero n ((reset0_iff ⟨n + 1, hn⟩).mp h))
      (blkL0 V c ⟨n + 1, hn⟩) (blkR0 V c ⟨n + 1, hn⟩) (accAt0 V c n (Nat.lt_of_succ_lt hn))) j).trans ?_
    refine (payAdd0 (blkL0 V c ⟨n + 1, hn⟩) (blkR0 V c ⟨n + 1, hn⟩) (accAt0 V c n (Nat.lt_of_succ_lt hn)) j).trans ?_
    rw [accAt0_apply c j n (Nat.lt_of_succ_lt hn), Finset.sum_range_succ _ (n + 1)]
    exact congrArg (_ + ·) (tileSum0_of_lt V c (n + 1) hn).symm

/-- A tile's entry (p, q) at point t is the Gram entry of the two arrays at rows (t / 4) · 1024 + p and
    (t % 4) · 1024 + q. -/
theorem tileRbf_blk0 (c : Dev nD) (t : Fin cfg0.N) (p q : Fin 1024) (hp : t.val / 4 * 1024 + p.val < 4096)
    (hq : t.val % 4 * 1024 + q.val < 4096) :
    TileValue.tileRbf (blkL0 V c t) (blkR0 V c t) p q
      = Cert.Mmd.rbf (arrL0 V c) (arrR0 V c) ⟨t.val / 4 * 1024 + p.val, hp⟩ ⟨t.val % 4 * 1024 + q.val, hq⟩ := by
  unfold TileValue.tileRbf Cert.Mmd.rbf Cert.Mmd.sqNorm Cert.Mmd.inner
  have eL : ∀ d : Fin 1024, blkL0 V c t (ix2 p d) = arrL0 V c (ix2 ⟨t.val / 4 * 1024 + p.val, hp⟩ d) :=
    fun d => blkL0_apply V c t p d hp
  have eR : ∀ d : Fin 1024, blkR0 V c t (ix2 q d) = arrR0 V c (ix2 ⟨t.val % 4 * 1024 + q.val, hq⟩ d) :=
    fun d => blkR0_apply V c t q d hq
  simp only [eL, eR]

/-- After the last point the running sum is the sum of the whole Gram matrix: the sixteen tiles cover it once. -/
theorem accLast0 (c : Dev nD) (j : S1x1.Idx) (h15 : 15 < cfg0.N) :
    accAt0 V c 15 h15 j = Cert.Mmd.rbfSum (arrL0 V c) (arrR0 V c) := by
  have hN : cfg0.N = 16 := N_0
  rw [accAt0_apply V c j 15 h15, Finset.sum_range (fun k => tileSum0 V c k)]
  unfold Cert.Mmd.rbfSum
  rw [← Cert.Mmd.tile_sum (fun n m => Cert.Mmd.rbf (arrL0 V c) (arrR0 V c) n m)]
  refine Finset.sum_congr rfl fun t _ => ?_
  have ht : t.val < cfg0.N := by omega
  rw [tileSum0_of_lt V c t.val ht]
  refine Finset.sum_congr rfl fun p _ => Finset.sum_congr rfl fun q _ => ?_
  exact tileRbf_blk0 V c ⟨t.val, ht⟩ p q _ _

/-! ## The output array -/

/-- The one write-back, after the last point, writes the sum of the whole Gram matrix. -/
theorem flushed0_eq (c : Dev nD) (t : Fin cfg0.N) (hf : (cfg0.win 2).flush t = true) :
    (dat0 V c).flushed 2 t
      = ((cfg0.win 2).blk t).view.read (Elt Ideal) (fun _ => Cert.Mmd.rbfSum (arrL0 V c) (arrR0 V c)) := by
  have hN : cfg0.N = 16 := N_0
  have h15 : t.val = 15 := by have := (flush0_2 t).mp hf; have := t.isLt; omega
  obtain ⟨n, hn⟩ := t
  dsimp only at h15
  subst h15
  show (cfg0.win 2).cut (grid0.coords ⟨15, hn⟩) ((dat0 V c).after 2 ⟨15, hn⟩) = _
  rw [after0_2]
  funext y
  exact accLast0 V c _ hn

/-- The output window's block is the whole one-element array at every point: block index zero and extent one on
    both axes. -/
theorem out_facts0 : ∀ t : Fin cfg0.N, win0_2.index t 0 * win0_2.size 0 = 0 ∧ win0_2.index t 1 * win0_2.size 1 = 0
      ∧ win0_2.xsize (grid0.coords t) 0 = 1 ∧ win0_2.xsize (grid0.coords t) 1 = 1 :=
  (by decide +kernel : ∀ t : Fin grid0.N, win0_2.index t 0 * win0_2.size 0 = 0 ∧ win0_2.index t 1 * win0_2.size 1 = 0
      ∧ win0_2.xsize (grid0.coords t) 0 = 1 ∧ win0_2.xsize (grid0.coords t) 1 = 1)

/-- The output array ends holding, at its one index, the sum of the whole Gram matrix of the two windowed arrays:
    the last point's write-back covers it. -/
theorem result0 (c : Dev nD) :
    (dat0 V c).arrAt 2 cfg0.N = fun _ => Cert.Mmd.rbfSum (V c (Pipeline.arrRef spec0 0)) (V c (Pipeline.arrRef spec0 1)) := by
  have hN : cfg0.N = 16 := N_0
  have h15 : 15 < cfg0.N := by omega
  refine (dat0 V c).arrAt_eq_of_cover 2 _ (flushed0_eq V c) fun i => ⟨⟨15, h15⟩, (flush0_2 ⟨15, h15⟩).mpr rfl, ?_⟩
  show i ∈ ((View.whole (Pipeline.arrRef spec0 2)).slice (win0_2.rect ⟨15, h15⟩)).set
  rw [View.set_slice_whole, Rect.mem_set_unit]
  intro a
  have h0 : (i 0 : Nat) < 1 := (i 0).isLt
  have h1 : (i 1 : Nat) < 1 := (i 1).isLt
  obtain ⟨f0, f1, f2, f3⟩ := out_facts0 ⟨15, h15⟩
  match a with
  | ⟨0, _⟩ =>
    show win0_2.index ⟨15, h15⟩ 0 * win0_2.size 0 ≤ (i 0 : Nat) ∧ (i 0 : Nat) < win0_2.index ⟨15, h15⟩ 0 * win0_2.size 0 + win0_2.xsize (grid0.coords ⟨15, h15⟩) 0
    rw [f0, f2]; omega
  | ⟨1, _⟩ =>
    show win0_2.index ⟨15, h15⟩ 1 * win0_2.size 1 ≤ (i 1 : Nat) ∧ (i 1 : Nat) < win0_2.index ⟨15, h15⟩ 1 * win0_2.size 1 + win0_2.xsize (grid0.coords ⟨15, h15⟩) 1
    rw [f1, f3]; omega

end Cert.KernelIdeal.HandValue

end
-- ==== Proof.KIValue1.lean ====
import proofs.«169877_j27968827031704_1_alg».proof.Proof.KIRegion1
import proofs.«169877_j27968827031704_1_alg».proof.Proof.TilePayload
import proofs.«169877_j27968827031704_1_alg».proof.Proof.TileSum
import proofs.«169877_j27968827031704_1_alg».proof.Proof.Spec
import Idealize.ShloMosaic.Lib.Pipeline.Value
import Idealize.ShloMosaic.Lib.ValueIdx
import Idealize.ShloMosaic.Lib.Tactic

/-! What launch 1 leaves in its one-element output array, on the extended reals: the sum of the whole Gram
    matrix of its two windowed arrays. The grid's sixteen points run over the 1024 × 1024 tiles of the
    4096 × 4096 matrix, point t at block row t / 4 and block column t % 4. The first point stores zero and
    then zero plus its tile's sum; each later point stores the running total plus its tile's sum; the block is
    written back after the last point only, and it is the whole array. So the array ends at the sum over the
    sixteen tiles of the tile sums, and the tiles cover the matrix exactly once. -/

set_option maxRecDepth 16384

noncomputable section

open scoped BigOperators

namespace Cert.KernelIdeal.HandValue

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.KernelIdeal.Hand

/-! ## What each case of the body leaves in the accumulator block, for any float values -/

section
variable {F : FTy → Type} [FloatOps F]

/-- Every store and load of the body is at offset zero on both axes. -/
theorem hz1 : (![0, 0] : Fin 2 → Nat) = fun _ => 0 := funext fun a => by fin_cases a <;> rfl

/-- A later point: one store covers the block, its value computed from the two input blocks and from what the
    block held. -/
theorem outRest1_eq (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset1 i) (x0 x1 : Vec F S1024x1024 .f32) (xo : Vec F S1x1 .f32) :
    outRest1 c i arg2 harg2 arg3 harg3 arg4 harg4 hc x0 x1 xo = k1_pay2 x0 x1 xo := by
  unfold outRest1
  rw [View.read_writes_eq_canon _ _ _ (coverRest1 c i arg2 harg2 arg3 harg3 arg4 harg4 hc x0 x1 xo)]
  unfold runRest1
  dsimp only
  sl_unfold_words
  rw [View.canon_unit_zero hz1]
  simp only [View.readAt_eq_ld, harg2.read_unread, harg3.read_unread, harg4.read_unread,
    View.ld_unit_zero (S := S1024x1024) hz1, View.ld_unit_zero (S := S1x1) hz1]

/-- The first point: the reset value is stored, read back, and the second store covers it with the value computed
    from the two input blocks and the reset value. -/
theorem outFirst1_eq (c : Dev nD) (i : grid1.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset1 i) (x0 x1 : Vec F S1024x1024 .f32) :
    outFirst1 c i arg2 harg2 arg3 harg3 arg4 harg4 hc x0 x1 = k1_pay2 x0 x1 (k1_pay1 (F := F)) := by
  unfold outFirst1
  rw [View.read_writes_eq_canon _ _ _ (coverFirst1 c i arg2 harg2 arg3 harg3 arg4 harg4 hc x0 x1)]
  unfold runFirst1
  dsimp only
  sl_unfold_words
  rw [View.canon_cons_unit_zero (S := S1x1) hz1, View.readCov_unit_zero (S := S1x1) _ hz1]
  simp only [View.readAt_eq_ld, harg2.read_unread, harg3.read_unread,
    View.ld_unit_zero (S := S1024x1024) hz1]

end

/-! ## The blocks, read at coordinates -/

variable (V : (c : Dev nD) → (b : Ref sig .tc) → Buf (Elt Ideal) ((c : Thread nD τ).loc b))

/-- The two windowed arrays, as 4096 × 1024 arrays of extended reals. -/
abbrev arrL1 (c : Dev nD) : Cert.Mmd.Mat := V c (Pipeline.arrRef spec1 0)
abbrev arrR1 (c : Dev nD) : Cert.Mmd.Mat := V c (Pipeline.arrRef spec1 1)
/-- The two input blocks at a point, as 1024 × 1024 arrays of extended reals. -/
abbrev blkL1 (c : Dev nD) (t : Fin cfg1.N) : Vec Ideal S1024x1024 .f32 := blk1 V c 0 t
abbrev blkR1 (c : Dev nD) (t : Fin cfg1.N) : Vec Ideal S1024x1024 .f32 := blk1 V c 1 t

/-- The block indices over the 4 × 4 row-major grid: the left window follows the block row t / 4, the right
    window the block column t % 4, both at column block zero. -/
theorem idx_facts1 : ∀ t : Fin cfg1.N, win1_0.index t 0 = t.val / 4 ∧ win1_0.index t 1 = 0
      ∧ win1_1.index t 0 = t.val % 4 ∧ win1_1.index t 1 = 0 :=
  (by decide +kernel : ∀ t : Fin grid1.N, win1_0.index t 0 = t.val / 4 ∧ win1_0.index t 1 = 0
      ∧ win1_1.index t 0 = t.val % 4 ∧ win1_1.index t 1 = 0)

/-- Row p of the left block at point t is row (t / 4) · 1024 + p of the left array. -/
theorem blkL1_apply (c : Dev nD) (t : Fin cfg1.N) (p d : Fin 1024) (hp : t.val / 4 * 1024 + p.val < 4096) :
    blkL1 V c t (ix2 p d) = arrL1 V c (ix2 ⟨t.val / 4 * 1024 + p.val, hp⟩ d) := by
  unfold blkL1 blk1
  rw [View.read_apply]
  show arrL1 V c (((cfg1.win 0).blk t).view.emb (ix2 p d)) = _
  refine congrArg (arrL1 V c) ?_
  funext a
  apply Fin.ext
  match a with
  | ⟨0, _⟩ =>
    show win1_0.index t 0 * 1024 + 1 * p.val = t.val / 4 * 1024 + p.val
    rw [(idx_facts1 t).1]; omega
  | ⟨1, _⟩ =>
    show win1_0.index t 1 * 1024 + 1 * d.val = d.val
    rw [(idx_facts1 t).2.1]; omega

/-- Row q of the right block at point t is row (t % 4) · 1024 + q of the right array. -/
theorem blkR1_apply (c : Dev nD) (t : Fin cfg1.N) (q d : Fin 1024) (hq : t.val % 4 * 1024 + q.val < 4096) :
    blkR1 V c t (ix2 q d) = arrR1 V c (ix2 ⟨t.val % 4 * 1024 + q.val, hq⟩ d) := by
  unfold blkR1 blk1
  rw [View.read_apply]
  show arrR1 V c (((cfg1.win 1).blk t).view.emb (ix2 q d)) = _
  refine congrArg (arrR1 V c) ?_
  funext a
  apply Fin.ext
  match a with
  | ⟨0, _⟩ =>
    show win1_1.index t 0 * 1024 + 1 * q.val = t.val % 4 * 1024 + q.val
    rw [(idx_facts1 t).2.2.1]; omega
  | ⟨1, _⟩ =>
    show win1_1.index t 1 * 1024 + 1 * d.val = d.val
    rw [(idx_facts1 t).2.2.2]; omega

/-! ## The two values a point writes, on the extended reals -/

/-- The reset value is zero. -/
theorem payReset1 (j : S1x1.Idx) : k1_pay1 (F := Ideal) j = 0 := TileValue.k0_pay1_apply j

/-- The value a point stores is what the block held plus the sum of the Gaussian kernel over the tile. -/
theorem payAdd1 (v5 v6 : Vec Ideal S1024x1024 .f32) (v30 : Vec Ideal S1x1 .f32) (j : S1x1.Idx) :
    k1_pay2 (F := Ideal) v5 v6 v30 j = v30 j + ∑ p : Fin 1024, ∑ q : Fin 1024, TileValue.tileRbf v5 v6 p q :=
  TileValue.k0_pay2_apply v5 v6 v30 j

/-! ## The running sum -/

/-- The sum of the Gaussian kernel over the tile of point k (zero past the grid). -/
def tileSum1 (c : Dev nD) (k : ℕ) : EReal :=
  if h : k < cfg1.N then ∑ p : Fin 1024, ∑ q : Fin 1024, TileValue.tileRbf (blkL1 V c ⟨k, h⟩) (blkR1 V c ⟨k, h⟩) p q else 0

theorem tileSum1_of_lt (c : Dev nD) (k : ℕ) (h : k < cfg1.N) :
    tileSum1 V c k = ∑ p : Fin 1024, ∑ q : Fin 1024, TileValue.tileRbf (blkL1 V c ⟨k, h⟩) (blkR1 V c ⟨k, h⟩) p q := by
  unfold tileSum1; exact dif_pos h

/-- After point n the accumulator block holds the sum of the tile sums of the points 0, …, n: the first point
    leaves 0 + its tile sum, each later point adds its own. -/
theorem accAt1_apply (c : Dev nD) (j : S1x1.Idx) : ∀ (n : ℕ) (hn : n < cfg1.N),
    accAt1 V c n hn j = ∑ k ∈ Finset.range (n + 1), tileSum1 V c k
  | 0, hn => by
    refine (congrFun (outFirst1_eq (F := Ideal) c (grid1.coords ⟨0, hn⟩) (ms1_0 ⟨0, hn⟩) (hs1_0 ⟨0, hn⟩) (ms1_1 ⟨0, hn⟩) (hs1_1 ⟨0, hn⟩)
      (ms1_2 ⟨0, hn⟩) (hs1_2 ⟨0, hn⟩) ((reset1_iff ⟨0, hn⟩).mpr rfl) (blkL1 V c ⟨0, hn⟩) (blkR1 V c ⟨0, hn⟩)) j).trans ?_
    refine (payAdd1 (blkL1 V c ⟨0, hn⟩) (blkR1 V c ⟨0, hn⟩) (k1_pay1 (F := Ideal)) j).trans ?_
    rw [payReset1, zero_add, Finset.sum_range_one]
    exact (tileSum1_of_lt V c 0 hn).symm
  | n + 1, hn => by
    refine (congrFun (outRest1_eq (F := Ideal) c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (fun h => Nat.succ_ne_zero n ((reset1_iff ⟨n + 1, hn⟩).mp h))
      (blkL1 V c ⟨n + 1, hn⟩) (blkR1 V c ⟨n + 1, hn⟩) (accAt1 V c n (Nat.lt_of_succ_lt hn))) j).trans ?_
    refine (payAdd1 (blkL1 V c ⟨n + 1, hn⟩) (blkR1 V c ⟨n + 1, hn⟩) (accAt1 V c n (Nat.lt_of_succ_lt hn)) j).trans ?_
    rw [accAt1_apply c j n (Nat.lt_of_succ_lt hn), Finset.sum_range_succ _ (n + 1)]
    exact congrArg (_ + ·) (tileSum1_of_lt V c (n + 1) hn).symm

/-- A tile's entry (p, q) at point t is the Gram entry of the two arrays at rows (t / 4) · 1024 + p and
    (t % 4) · 1024 + q. -/
theorem tileRbf_blk1 (c : Dev nD) (t : Fin cfg1.N) (p q : Fin 1024) (hp : t.val / 4 * 1024 + p.val < 4096)
    (hq : t.val % 4 * 1024 + q.val < 4096) :
    TileValue.tileRbf (blkL1 V c t) (blkR1 V c t) p q
      = Cert.Mmd.rbf (arrL1 V c) (arrR1 V c) ⟨t.val / 4 * 1024 + p.val, hp⟩ ⟨t.val % 4 * 1024 + q.val, hq⟩ := by
  unfold TileValue.tileRbf Cert.Mmd.rbf Cert.Mmd.sqNorm Cert.Mmd.inner
  have eL : ∀ d : Fin 1024, blkL1 V c t (ix2 p d) = arrL1 V c (ix2 ⟨t.val / 4 * 1024 + p.val, hp⟩ d) :=
    fun d => blkL1_apply V c t p d hp
  have eR : ∀ d : Fin 1024, blkR1 V c t (ix2 q d) = arrR1 V c (ix2 ⟨t.val % 4 * 1024 + q.val, hq⟩ d) :=
    fun d => blkR1_apply V c t q d hq
  simp only [eL, eR]

/-- After the last point the running sum is the sum of the whole Gram matrix: the sixteen tiles cover it once. -/
theorem accLast1 (c : Dev nD) (j : S1x1.Idx) (h15 : 15 < cfg1.N) :
    accAt1 V c 15 h15 j = Cert.Mmd.rbfSum (arrL1 V c) (arrR1 V c) := by
  have hN : cfg1.N = 16 := N_1
  rw [accAt1_apply V c j 15 h15, Finset.sum_range (fun k => tileSum1 V c k)]
  unfold Cert.Mmd.rbfSum
  rw [← Cert.Mmd.tile_sum (fun n m => Cert.Mmd.rbf (arrL1 V c) (arrR1 V c) n m)]
  refine Finset.sum_congr rfl fun t _ => ?_
  have ht : t.val < cfg1.N := by omega
  rw [tileSum1_of_lt V c t.val ht]
  refine Finset.sum_congr rfl fun p _ => Finset.sum_congr rfl fun q _ => ?_
  exact tileRbf_blk1 V c ⟨t.val, ht⟩ p q _ _

/-! ## The output array -/

/-- The one write-back, after the last point, writes the sum of the whole Gram matrix. -/
theorem flushed1_eq (c : Dev nD) (t : Fin cfg1.N) (hf : (cfg1.win 2).flush t = true) :
    (dat1 V c).flushed 2 t
      = ((cfg1.win 2).blk t).view.read (Elt Ideal) (fun _ => Cert.Mmd.rbfSum (arrL1 V c) (arrR1 V c)) := by
  have hN : cfg1.N = 16 := N_1
  have h15 : t.val = 15 := by have := (flush1_2 t).mp hf; have := t.isLt; omega
  obtain ⟨n, hn⟩ := t
  dsimp only at h15
  subst h15
  show (cfg1.win 2).cut (grid1.coords ⟨15, hn⟩) ((dat1 V c).after 2 ⟨15, hn⟩) = _
  rw [after1_2]
  funext y
  exact accLast1 V c _ hn

/-- The output window's block is the whole one-element array at every point: block index zero and extent one on
    both axes. -/
theorem out_facts1 : ∀ t : Fin cfg1.N, win1_2.index t 0 * win1_2.size 0 = 0 ∧ win1_2.index t 1 * win1_2.size 1 = 0
      ∧ win1_2.xsize (grid1.coords t) 0 = 1 ∧ win1_2.xsize (grid1.coords t) 1 = 1 :=
  (by decide +kernel : ∀ t : Fin grid1.N, win1_2.index t 0 * win1_2.size 0 = 0 ∧ win1_2.index t 1 * win1_2.size 1 = 0
      ∧ win1_2.xsize (grid1.coords t) 0 = 1 ∧ win1_2.xsize (grid1.coords t) 1 = 1)

/-- The output array ends holding, at its one index, the sum of the whole Gram matrix of the two windowed arrays:
    the last point's write-back covers it. -/
theorem result1 (c : Dev nD) :
    (dat1 V c).arrAt 2 cfg1.N = fun _ => Cert.Mmd.rbfSum (V c (Pipeline.arrRef spec1 0)) (V c (Pipeline.arrRef spec1 1)) := by
  have hN : cfg1.N = 16 := N_1
  have h15 : 15 < cfg1.N := by omega
  refine (dat1 V c).arrAt_eq_of_cover 2 _ (flushed1_eq V c) fun i => ⟨⟨15, h15⟩, (flush1_2 ⟨15, h15⟩).mpr rfl, ?_⟩
  show i ∈ ((View.whole (Pipeline.arrRef spec1 2)).slice (win1_2.rect ⟨15, h15⟩)).set
  rw [View.set_slice_whole, Rect.mem_set_unit]
  intro a
  have h0 : (i 0 : Nat) < 1 := (i 0).isLt
  have h1 : (i 1 : Nat) < 1 := (i 1).isLt
  obtain ⟨f0, f1, f2, f3⟩ := out_facts1 ⟨15, h15⟩
  match a with
  | ⟨0, _⟩ =>
    show win1_2.index ⟨15, h15⟩ 0 * win1_2.size 0 ≤ (i 0 : Nat) ∧ (i 0 : Nat) < win1_2.index ⟨15, h15⟩ 0 * win1_2.size 0 + win1_2.xsize (grid1.coords ⟨15, h15⟩) 0
    rw [f0, f2]; omega
  | ⟨1, _⟩ =>
    show win1_2.index ⟨15, h15⟩ 1 * win1_2.size 1 ≤ (i 1 : Nat) ∧ (i 1 : Nat) < win1_2.index ⟨15, h15⟩ 1 * win1_2.size 1 + win1_2.xsize (grid1.coords ⟨15, h15⟩) 1
    rw [f1, f3]; omega

end Cert.KernelIdeal.HandValue

end
-- ==== Proof.KIValue2.lean ====
import proofs.«169877_j27968827031704_1_alg».proof.Proof.KIRegion2
import proofs.«169877_j27968827031704_1_alg».proof.Proof.TilePayload
import proofs.«169877_j27968827031704_1_alg».proof.Proof.TileSum
import proofs.«169877_j27968827031704_1_alg».proof.Proof.Spec
import Idealize.ShloMosaic.Lib.Pipeline.Value
import Idealize.ShloMosaic.Lib.ValueIdx
import Idealize.ShloMosaic.Lib.Tactic

/-! What launch 2 leaves in its one-element output array, on the extended reals: the sum of the whole Gram
    matrix of its two windowed arrays. The grid's sixteen points run over the 1024 × 1024 tiles of the
    4096 × 4096 matrix, point t at block row t / 4 and block column t % 4. The first point stores zero and
    then zero plus its tile's sum; each later point stores the running total plus its tile's sum; the block is
    written back after the last point only, and it is the whole array. So the array ends at the sum over the
    sixteen tiles of the tile sums, and the tiles cover the matrix exactly once. -/

set_option maxRecDepth 16384

noncomputable section

open scoped BigOperators

namespace Cert.KernelIdeal.HandValue

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.KernelIdeal.Hand

/-! ## What each case of the body leaves in the accumulator block, for any float values -/

section
variable {F : FTy → Type} [FloatOps F]

/-- Every store and load of the body is at offset zero on both axes. -/
theorem hz2 : (![0, 0] : Fin 2 → Nat) = fun _ => 0 := funext fun a => by fin_cases a <;> rfl

/-- A later point: one store covers the block, its value computed from the two input blocks and from what the
    block held. -/
theorem outRest2_eq (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : ¬reset2 i) (x0 x1 : Vec F S1024x1024 .f32) (xo : Vec F S1x1 .f32) :
    outRest2 c i arg2 harg2 arg3 harg3 arg4 harg4 hc x0 x1 xo = k2_pay2 x0 x1 xo := by
  unfold outRest2
  rw [View.read_writes_eq_canon _ _ _ (coverRest2 c i arg2 harg2 arg3 harg3 arg4 harg4 hc x0 x1 xo)]
  unfold runRest2
  dsimp only
  sl_unfold_words
  rw [View.canon_unit_zero hz2]
  simp only [View.readAt_eq_ld, harg2.read_unread, harg3.read_unread, harg4.read_unread,
    View.ld_unit_zero (S := S1024x1024) hz2, View.ld_unit_zero (S := S1x1) hz2]

/-- The first point: the reset value is stored, read back, and the second store covers it with the value computed
    from the two input blocks and the reset value. -/
theorem outFirst2_eq (c : Dev nD) (i : grid2.Coords) (arg2 : Memref sig .tc .vmem S1024x1024 .f32) (harg2 : arg2.IsWhole)
    (arg3 : Memref sig .tc .vmem S1024x1024 .f32) (harg3 : arg3.IsWhole) (arg4 : Memref sig .tc .vmem S1x1 .f32) (harg4 : arg4.IsWhole)
    (hc : reset2 i) (x0 x1 : Vec F S1024x1024 .f32) :
    outFirst2 c i arg2 harg2 arg3 harg3 arg4 harg4 hc x0 x1 = k2_pay2 x0 x1 (k2_pay1 (F := F)) := by
  unfold outFirst2
  rw [View.read_writes_eq_canon _ _ _ (coverFirst2 c i arg2 harg2 arg3 harg3 arg4 harg4 hc x0 x1)]
  unfold runFirst2
  dsimp only
  sl_unfold_words
  rw [View.canon_cons_unit_zero (S := S1x1) hz2, View.readCov_unit_zero (S := S1x1) _ hz2]
  simp only [View.readAt_eq_ld, harg2.read_unread, harg3.read_unread,
    View.ld_unit_zero (S := S1024x1024) hz2]

end

/-! ## The blocks, read at coordinates -/

variable (V : (c : Dev nD) → (b : Ref sig .tc) → Buf (Elt Ideal) ((c : Thread nD τ).loc b))

/-- The two windowed arrays, as 4096 × 1024 arrays of extended reals. -/
abbrev arrL2 (c : Dev nD) : Cert.Mmd.Mat := V c (Pipeline.arrRef spec2 0)
abbrev arrR2 (c : Dev nD) : Cert.Mmd.Mat := V c (Pipeline.arrRef spec2 1)
/-- The two input blocks at a point, as 1024 × 1024 arrays of extended reals. -/
abbrev blkL2 (c : Dev nD) (t : Fin cfg2.N) : Vec Ideal S1024x1024 .f32 := blk2 V c 0 t
abbrev blkR2 (c : Dev nD) (t : Fin cfg2.N) : Vec Ideal S1024x1024 .f32 := blk2 V c 1 t

/-- The block indices over the 4 × 4 row-major grid: the left window follows the block row t / 4, the right
    window the block column t % 4, both at column block zero. -/
theorem idx_facts2 : ∀ t : Fin cfg2.N, win2_0.index t 0 = t.val / 4 ∧ win2_0.index t 1 = 0
      ∧ win2_1.index t 0 = t.val % 4 ∧ win2_1.index t 1 = 0 :=
  (by decide +kernel : ∀ t : Fin grid2.N, win2_0.index t 0 = t.val / 4 ∧ win2_0.index t 1 = 0
      ∧ win2_1.index t 0 = t.val % 4 ∧ win2_1.index t 1 = 0)

/-- Row p of the left block at point t is row (t / 4) · 1024 + p of the left array. -/
theorem blkL2_apply (c : Dev nD) (t : Fin cfg2.N) (p d : Fin 1024) (hp : t.val / 4 * 1024 + p.val < 4096) :
    blkL2 V c t (ix2 p d) = arrL2 V c (ix2 ⟨t.val / 4 * 1024 + p.val, hp⟩ d) := by
  unfold blkL2 blk2
  rw [View.read_apply]
  show arrL2 V c (((cfg2.win 0).blk t).view.emb (ix2 p d)) = _
  refine congrArg (arrL2 V c) ?_
  funext a
  apply Fin.ext
  match a with
  | ⟨0, _⟩ =>
    show win2_0.index t 0 * 1024 + 1 * p.val = t.val / 4 * 1024 + p.val
    rw [(idx_facts2 t).1]; omega
  | ⟨1, _⟩ =>
    show win2_0.index t 1 * 1024 + 1 * d.val = d.val
    rw [(idx_facts2 t).2.1]; omega

/-- Row q of the right block at point t is row (t % 4) · 1024 + q of the right array. -/
theorem blkR2_apply (c : Dev nD) (t : Fin cfg2.N) (q d : Fin 1024) (hq : t.val % 4 * 1024 + q.val < 4096) :
    blkR2 V c t (ix2 q d) = arrR2 V c (ix2 ⟨t.val % 4 * 1024 + q.val, hq⟩ d) := by
  unfold blkR2 blk2
  rw [View.read_apply]
  show arrR2 V c (((cfg2.win 1).blk t).view.emb (ix2 q d)) = _
  refine congrArg (arrR2 V c) ?_
  funext a
  apply Fin.ext
  match a with
  | ⟨0, _⟩ =>
    show win2_1.index t 0 * 1024 + 1 * q.val = t.val % 4 * 1024 + q.val
    rw [(idx_facts2 t).2.2.1]; omega
  | ⟨1, _⟩ =>
    show win2_1.index t 1 * 1024 + 1 * d.val = d.val
    rw [(idx_facts2 t).2.2.2]; omega

/-! ## The two values a point writes, on the extended reals -/

/-- The reset value is zero. -/
theorem payReset2 (j : S1x1.Idx) : k2_pay1 (F := Ideal) j = 0 := TileValue.k0_pay1_apply j

/-- The value a point stores is what the block held plus the sum of the Gaussian kernel over the tile. -/
theorem payAdd2 (v5 v6 : Vec Ideal S1024x1024 .f32) (v30 : Vec Ideal S1x1 .f32) (j : S1x1.Idx) :
    k2_pay2 (F := Ideal) v5 v6 v30 j = v30 j + ∑ p : Fin 1024, ∑ q : Fin 1024, TileValue.tileRbf v5 v6 p q :=
  TileValue.k0_pay2_apply v5 v6 v30 j

/-! ## The running sum -/

/-- The sum of the Gaussian kernel over the tile of point k (zero past the grid). -/
def tileSum2 (c : Dev nD) (k : ℕ) : EReal :=
  if h : k < cfg2.N then ∑ p : Fin 1024, ∑ q : Fin 1024, TileValue.tileRbf (blkL2 V c ⟨k, h⟩) (blkR2 V c ⟨k, h⟩) p q else 0

theorem tileSum2_of_lt (c : Dev nD) (k : ℕ) (h : k < cfg2.N) :
    tileSum2 V c k = ∑ p : Fin 1024, ∑ q : Fin 1024, TileValue.tileRbf (blkL2 V c ⟨k, h⟩) (blkR2 V c ⟨k, h⟩) p q := by
  unfold tileSum2; exact dif_pos h

/-- After point n the accumulator block holds the sum of the tile sums of the points 0, …, n: the first point
    leaves 0 + its tile sum, each later point adds its own. -/
theorem accAt2_apply (c : Dev nD) (j : S1x1.Idx) : ∀ (n : ℕ) (hn : n < cfg2.N),
    accAt2 V c n hn j = ∑ k ∈ Finset.range (n + 1), tileSum2 V c k
  | 0, hn => by
    refine (congrFun (outFirst2_eq (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) ((reset2_iff ⟨0, hn⟩).mpr rfl) (blkL2 V c ⟨0, hn⟩) (blkR2 V c ⟨0, hn⟩)) j).trans ?_
    refine (payAdd2 (blkL2 V c ⟨0, hn⟩) (blkR2 V c ⟨0, hn⟩) (k2_pay1 (F := Ideal)) j).trans ?_
    rw [payReset2, zero_add, Finset.sum_range_one]
    exact (tileSum2_of_lt V c 0 hn).symm
  | n + 1, hn => by
    refine (congrFun (outRest2_eq (F := Ideal) c (grid2.coords ⟨n + 1, hn⟩) (ms2_0 ⟨n + 1, hn⟩) (hs2_0 ⟨n + 1, hn⟩) (ms2_1 ⟨n + 1, hn⟩) (hs2_1 ⟨n + 1, hn⟩)
      (ms2_2 ⟨n + 1, hn⟩) (hs2_2 ⟨n + 1, hn⟩) (fun h => Nat.succ_ne_zero n ((reset2_iff ⟨n + 1, hn⟩).mp h))
      (blkL2 V c ⟨n + 1, hn⟩) (blkR2 V c ⟨n + 1, hn⟩) (accAt2 V c n (Nat.lt_of_succ_lt hn))) j).trans ?_
    refine (payAdd2 (blkL2 V c ⟨n + 1, hn⟩) (blkR2 V c ⟨n + 1, hn⟩) (accAt2 V c n (Nat.lt_of_succ_lt hn)) j).trans ?_
    rw [accAt2_apply c j n (Nat.lt_of_succ_lt hn), Finset.sum_range_succ _ (n + 1)]
    exact congrArg (_ + ·) (tileSum2_of_lt V c (n + 1) hn).symm

/-- A tile's entry (p, q) at point t is the Gram entry of the two arrays at rows (t / 4) · 1024 + p and
    (t % 4) · 1024 + q. -/
theorem tileRbf_blk2 (c : Dev nD) (t : Fin cfg2.N) (p q : Fin 1024) (hp : t.val / 4 * 1024 + p.val < 4096)
    (hq : t.val % 4 * 1024 + q.val < 4096) :
    TileValue.tileRbf (blkL2 V c t) (blkR2 V c t) p q
      = Cert.Mmd.rbf (arrL2 V c) (arrR2 V c) ⟨t.val / 4 * 1024 + p.val, hp⟩ ⟨t.val % 4 * 1024 + q.val, hq⟩ := by
  unfold TileValue.tileRbf Cert.Mmd.rbf Cert.Mmd.sqNorm Cert.Mmd.inner
  have eL : ∀ d : Fin 1024, blkL2 V c t (ix2 p d) = arrL2 V c (ix2 ⟨t.val / 4 * 1024 + p.val, hp⟩ d) :=
    fun d => blkL2_apply V c t p d hp
  have eR : ∀ d : Fin 1024, blkR2 V c t (ix2 q d) = arrR2 V c (ix2 ⟨t.val % 4 * 1024 + q.val, hq⟩ d) :=
    fun d => blkR2_apply V c t q d hq
  simp only [eL, eR]

/-- After the last point the running sum is the sum of the whole Gram matrix: the sixteen tiles cover it once. -/
theorem accLast2 (c : Dev nD) (j : S1x1.Idx) (h15 : 15 < cfg2.N) :
    accAt2 V c 15 h15 j = Cert.Mmd.rbfSum (arrL2 V c) (arrR2 V c) := by
  have hN : cfg2.N = 16 := N_2
  rw [accAt2_apply V c j 15 h15, Finset.sum_range (fun k => tileSum2 V c k)]
  unfold Cert.Mmd.rbfSum
  rw [← Cert.Mmd.tile_sum (fun n m => Cert.Mmd.rbf (arrL2 V c) (arrR2 V c) n m)]
  refine Finset.sum_congr rfl fun t _ => ?_
  have ht : t.val < cfg2.N := by omega
  rw [tileSum2_of_lt V c t.val ht]
  refine Finset.sum_congr rfl fun p _ => Finset.sum_congr rfl fun q _ => ?_
  exact tileRbf_blk2 V c ⟨t.val, ht⟩ p q _ _

/-! ## The output array -/

/-- The one write-back, after the last point, writes the sum of the whole Gram matrix. -/
theorem flushed2_eq (c : Dev nD) (t : Fin cfg2.N) (hf : (cfg2.win 2).flush t = true) :
    (dat2 V c).flushed 2 t
      = ((cfg2.win 2).blk t).view.read (Elt Ideal) (fun _ => Cert.Mmd.rbfSum (arrL2 V c) (arrR2 V c)) := by
  have hN : cfg2.N = 16 := N_2
  have h15 : t.val = 15 := by have := (flush2_2 t).mp hf; have := t.isLt; omega
  obtain ⟨n, hn⟩ := t
  dsimp only at h15
  subst h15
  show (cfg2.win 2).cut (grid2.coords ⟨15, hn⟩) ((dat2 V c).after 2 ⟨15, hn⟩) = _
  rw [after2_2]
  funext y
  exact accLast2 V c _ hn

/-- The output window's block is the whole one-element array at every point: block index zero and extent one on
    both axes. -/
theorem out_facts2 : ∀ t : Fin cfg2.N, win2_2.index t 0 * win2_2.size 0 = 0 ∧ win2_2.index t 1 * win2_2.size 1 = 0
      ∧ win2_2.xsize (grid2.coords t) 0 = 1 ∧ win2_2.xsize (grid2.coords t) 1 = 1 :=
  (by decide +kernel : ∀ t : Fin grid2.N, win2_2.index t 0 * win2_2.size 0 = 0 ∧ win2_2.index t 1 * win2_2.size 1 = 0
      ∧ win2_2.xsize (grid2.coords t) 0 = 1 ∧ win2_2.xsize (grid2.coords t) 1 = 1)

/-- The output array ends holding, at its one index, the sum of the whole Gram matrix of the two windowed arrays:
    the last point's write-back covers it. -/
theorem result2 (c : Dev nD) :
    (dat2 V c).arrAt 2 cfg2.N = fun _ => Cert.Mmd.rbfSum (V c (Pipeline.arrRef spec2 0)) (V c (Pipeline.arrRef spec2 1)) := by
  have hN : cfg2.N = 16 := N_2
  have h15 : 15 < cfg2.N := by omega
  refine (dat2 V c).arrAt_eq_of_cover 2 _ (flushed2_eq V c) fun i => ⟨⟨15, h15⟩, (flush2_2 ⟨15, h15⟩).mpr rfl, ?_⟩
  show i ∈ ((View.whole (Pipeline.arrRef spec2 2)).slice (win2_2.rect ⟨15, h15⟩)).set
  rw [View.set_slice_whole, Rect.mem_set_unit]
  intro a
  have h0 : (i 0 : Nat) < 1 := (i 0).isLt
  have h1 : (i 1 : Nat) < 1 := (i 1).isLt
  obtain ⟨f0, f1, f2, f3⟩ := out_facts2 ⟨15, h15⟩
  match a with
  | ⟨0, _⟩ =>
    show win2_2.index ⟨15, h15⟩ 0 * win2_2.size 0 ≤ (i 0 : Nat) ∧ (i 0 : Nat) < win2_2.index ⟨15, h15⟩ 0 * win2_2.size 0 + win2_2.xsize (grid2.coords ⟨15, h15⟩) 0
    rw [f0, f2]; omega
  | ⟨1, _⟩ =>
    show win2_2.index ⟨15, h15⟩ 1 * win2_2.size 1 ≤ (i 1 : Nat) ∧ (i 1 : Nat) < win2_2.index ⟨15, h15⟩ 1 * win2_2.size 1 + win2_2.xsize (grid2.coords ⟨15, h15⟩) 1
    rw [f1, f3]; omega

end Cert.KernelIdeal.HandValue

end
-- ==== Proof.KITail.lean ====
import proofs.«169877_j27968827031704_1_alg».proof.Proof.Gen.KernelIdeal.Regions
import proofs.«169877_j27968827031704_1_alg».proof.Proof.Spec
import Idealize.ShloMosaic.Lib.StableHlo.Run
import Idealize.ShloMosaic.Lib.ValueIdx
import Idealize.ShloMosaic.Lib.Pipeline.Value

/-! The host arithmetic between and after the three launches, on the extended reals, as one formula. Each launch
    leaves a 1 x 1 total; the host reads it as a scalar and divides it by 4096 · 4096, the number of Gram entries,
    giving the three means of k(x,x), k(y,y) and k(x,y). After the third launch it adds the first two means and
    subtracts twice the third. Whatever the launches leave, the final scalar is
    (t_xx / 4096² + t_yy / 4096²) − 2 · (t_xy / 4096²) of the three totals. -/

noncomputable section

namespace Cert.KernelIdeal.HandValue

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (outs : Outs (F := Ideal))

/-- A 1 x 1 array has one index, (0, 0). -/
theorem idx11_eq (k : S1x1.Idx) : k = ix2 (0 : Fin 1) (0 : Fin 1) :=
  funext fun a => Fin.ext (by
    match a with
    | ⟨0, _⟩ => have h : (k 0).val < 1 := (k 0).isLt; show (k 0).val = 0; omega
    | ⟨1, _⟩ => have h : (k 1).val < 1 := (k 1).isLt; show (k 1).val = 0; omega)

/-- A 1 x 1 array viewed as a scalar reads its one entry. -/
theorem scalar_read {α : Type} (x : S1x1.Idx → α) (h : S1x1.ShapeCasts S_) (i : S_.Idx) :
    shapeCast S_ x h i = x (ix2 (0 : Fin 1) (0 : Fin 1)) := by
  unfold shapeCast
  exact congrArg x (idx11_eq _)

/-- After the first launch the host divides the launch's 1 x 1 total, read as a scalar, by 4096 · 4096. -/
theorem mean_xx (c : Dev nD) :
    V2 m outs c main_v3 = fun _ => Ideal.div (outs 1 main_v0 c (ix2 (0 : Fin 1) (0 : Fin 1))) Cert.Mmd.count := by
  show StableHlo.after hostOps1 (V1 m outs c) (Proc.devRef .tc main_v3) = _
  after_results
  funext i
  show Ideal.div (shapeCast S_ (V1 m outs c main_v0) shapeCasts_S1x1_S_ i)
      (Ideal.ofBits .f32 0x45800000#32 * Ideal.ofBits .f32 0x45800000#32) = _
  refine congrArg (Ideal.div · Cert.Mmd.count) ((scalar_read _ _ i).trans ?_)
  exact congrFun (Function.update_self (Proc.devRef .tc main_v0) (outs 1 main_v0 c) (V0 m c)) _

/-- After the second launch the host does the same with that launch's total. -/
theorem mean_yy (c : Dev nD) :
    V4 m outs c main_v7 = fun _ => Ideal.div (outs 3 main_v4 c (ix2 (0 : Fin 1) (0 : Fin 1))) Cert.Mmd.count := by
  show StableHlo.after hostOps2 (V3 m outs c) (Proc.devRef .tc main_v7) = _
  after_results
  funext i
  show Ideal.div (shapeCast S_ (V3 m outs c main_v4) shapeCasts_S1x1_S_ i)
      (Ideal.ofBits .f32 0x45800000#32 * Ideal.ofBits .f32 0x45800000#32) = _
  refine congrArg (Ideal.div · Cert.Mmd.count) ((scalar_read _ _ i).trans ?_)
  exact congrFun (Function.update_self (Proc.devRef .tc main_v4) (outs 3 main_v4 c) (V2 m outs c)) _

/-- The last host operations at the scalar's index: (a + b) − 2 · (x / (4096 · 4096)), x a 1 x 1 array read as a scalar. -/
theorem tail_pointwise (A B : FVec Ideal S_ .f32) (X : FVec Ideal S1x1 .f32) (h : S1x1.ShapeCasts S_) (i : S_.Idx) :
    subf (addf A B) (mulf (constant (F := Ideal) S_ .f32 0x40000000#32)
        (Host.divf (fun i => shapeCast S_ X h i)
          (mulf (constant (F := Ideal) S_ .f32 0x45800000#32) (constant (F := Ideal) S_ .f32 0x45800000#32)))) i
      = (A i + B i) - Cert.Mmd.two * Ideal.div (X (ix2 (0 : Fin 1) (0 : Fin 1))) Cert.Mmd.count :=
  congrArg (fun z => (A i + B i) - Cert.Mmd.two * Ideal.div z Cert.Mmd.count) (scalar_read X h i)

/-- After the third launch the host takes that launch's mean the same way, adds the first two means and subtracts
    twice the third: the result is (mean_xx + mean_yy) − 2 · mean_xy, each mean a launch's total over 4096 · 4096. -/
theorem tail_value (c : Dev nD) :
    V6 m outs c main_v14 = fun _ =>
      (Ideal.div (outs 1 main_v0 c (ix2 (0 : Fin 1) (0 : Fin 1))) Cert.Mmd.count
          + Ideal.div (outs 3 main_v4 c (ix2 (0 : Fin 1) (0 : Fin 1))) Cert.Mmd.count)
        - Cert.Mmd.two * Ideal.div (outs 5 main_v8 c (ix2 (0 : Fin 1) (0 : Fin 1))) Cert.Mmd.count := by
  have h3 : V5 m outs c main_v3 = fun _ => Ideal.div (outs 1 main_v0 c (ix2 (0 : Fin 1) (0 : Fin 1))) Cert.Mmd.count :=
    (V5_of m outs c main_v3 (by decide)).trans <| (V4_of m outs c main_v3 (by decide)).trans <|
      (V3_of m outs c main_v3 (by decide)).trans (mean_xx m outs c)
  have h7 : V5 m outs c main_v7 = fun _ => Ideal.div (outs 3 main_v4 c (ix2 (0 : Fin 1) (0 : Fin 1))) Cert.Mmd.count :=
    (V5_of m outs c main_v7 (by decide)).trans (mean_yy m outs c)
  have h8 : V5 m outs c main_v8 = outs 5 main_v8 c :=
    Function.update_self (Proc.devRef .tc main_v8) (outs 5 main_v8 c) (V4 m outs c)
  show StableHlo.after hostOps3 (V5 m outs c) (Proc.devRef .tc main_v14) = _
  after_results
  funext i
  refine (tail_pointwise (V5 m outs c main_v3) (V5 m outs c main_v7) (V5 m outs c main_v8) shapeCasts_S1x1_S_ i).trans ?_
  exact congr (congrArg HSub.hSub (congr (congrArg HAdd.hAdd (congrFun h3 i)) (congrFun h7 i)))
    (congrArg (Cert.Mmd.two * ·) (congrArg (Ideal.div · Cert.Mmd.count) (congrFun h8 _)))

end Cert.KernelIdeal.HandValue

end
-- ==== Proof.KIValue.lean ====
import proofs.«169877_j27968827031704_1_alg».proof.Proof.KISegs
import proofs.«169877_j27968827031704_1_alg».proof.Proof.KIValue0
import proofs.«169877_j27968827031704_1_alg».proof.Proof.KIValue1
import proofs.«169877_j27968827031704_1_alg».proof.Proof.KIValue2
import proofs.«169877_j27968827031704_1_alg».proof.Proof.KITail

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Hand Idealize.ShloMosaic.ValueIdx

variable (m : (ℓ : Loc nD τ sig) → Buf (Elt Ideal) ℓ)

/-! # The idealized kernel program computes the statistic

Each launch leaves the Gram sum of the two arrays it reads; the host operations divide each by the number of
entries and combine the three means. No host operation and no launch writes an argument array, so every launch
reads the arrays as launched. -/

/-- The argument arrays reach launch 1 as launched, -/
theorem Vin1_arg1 (c : Dev nD) : Vin1 m c main_arg1 = m ((c : Thread nD τ).loc main_arg1) :=
  (V2_of m (outsA m) c main_arg1 (by decide)).trans ((V1_of m (outsA m) c main_arg1 (by decide)).trans rfl)
/-- and launch 2. -/
theorem Vin2_arg0 (c : Dev nD) : Vin2 m c main_arg0 = m ((c : Thread nD τ).loc main_arg0) :=
  (V4_of m (outsB m) c main_arg0 (by decide)).trans <| (V3_of m (outsB m) c main_arg0 (by decide)).trans <|
    (V2_of m (outsB m) c main_arg0 (by decide)).trans <| (V1_of m (outsB m) c main_arg0 (by decide)).trans rfl
theorem Vin2_arg1 (c : Dev nD) : Vin2 m c main_arg1 = m ((c : Thread nD τ).loc main_arg1) :=
  (V4_of m (outsB m) c main_arg1 (by decide)).trans <| (V3_of m (outsB m) c main_arg1 (by decide)).trans <|
    (V2_of m (outsB m) c main_arg1 (by decide)).trans <| (V1_of m (outsB m) c main_arg1 (by decide)).trans rfl

/-- Launch 0 leaves the Gram sum of the first argument with itself, -/
theorem res0_eq (c : Dev nD) :
    res0 m c = fun _ => Cert.Mmd.rbfSum (m ((c : Thread nD τ).loc main_arg0)) (m ((c : Thread nD τ).loc main_arg0)) := by
  unfold res0; rw [result0]
/-- launch 1 that of the second argument with itself, -/
theorem res1_eq (c : Dev nD) :
    res1 m c = fun _ => Cert.Mmd.rbfSum (m ((c : Thread nD τ).loc main_arg1)) (m ((c : Thread nD τ).loc main_arg1)) := by
  unfold res1; rw [result1]
  show (fun _ => Cert.Mmd.rbfSum (Vin1 m c main_arg1) (Vin1 m c main_arg1)) = _
  rw [Vin1_arg1]
/-- and launch 2 that of the first with the second. -/
theorem res2_eq (c : Dev nD) :
    res2 m c = fun _ => Cert.Mmd.rbfSum (m ((c : Thread nD τ).loc main_arg0)) (m ((c : Thread nD τ).loc main_arg1)) := by
  unfold res2; rw [result2]
  show (fun _ => Cert.Mmd.rbfSum (Vin2 m c main_arg0) (Vin2 m c main_arg1)) = _
  rw [Vin2_arg0, Vin2_arg1]

/-- The result buffer at the end of the run holds the statistic of the two argument arrays. -/
theorem result_eq (c : Dev nD) :
    V6 m (outs m) c main_v14 = fun _ => Cert.Mmd.mmd (m ((c : Thread nD τ).loc main_arg0)) (m ((c : Thread nD τ).loc main_arg1)) := by
  rw [tail_value, outs_1, outs_3, outs_5, res0_eq, res1_eq, res2_eq]
  rfl

end Cert.KernelIdeal.HandValue

end
-- ==== Proof.RefIsMmd.lean ====
import proofs.«169877_j27968827031704_1_alg».proof.Proof.Gen.ReferenceIdeal.Read
import proofs.«169877_j27968827031704_1_alg».proof.Proof.Spec
import Idealize.ShloMosaic.PureOps.Ideal
import Idealize.ShloMosaic.PureOps.Ideal.Laws
import Idealize.ShloMosaic.Lib.ValueIdx

/-! The reference program computes the maximum-mean-discrepancy statistic of the specification.
    For each of the three pairs (x, x), (y, y), (x, y) it forms the Gram entry
    exp (-(|x_n|² + |y_m|² - 2 ⟨x_n, y_m⟩) / 32), sums all 4096² entries and divides by 16777216;
    the specification multiplies the squared distance by -1/32 and divides by 4096 · 4096.
    On the extended reals -a / 32 = a · (-1/32) for every a, and 4096 · 4096 = 16777216, so the
    two agree entry by entry and no finiteness of the inputs is used. -/

noncomputable section

open scoped BigOperators

namespace Cert.ReferenceIdeal.RefValue

open Cert.ReferenceIdeal Cert.ReferenceIdeal.Read Idealize.ShloMosaic Idealize.ShloMosaic.ValueIdx

/-! ## The literals -/

/-- The word 0x42000000 denotes the real 32. -/
theorem ofBits_32 : Ideal.ofBits .f32 0x42000000#32 = ((32 : ℝ) : EReal) := by
  simp [Ideal.ofBits, Ideal.ieee, -EReal.coe_mul]; norm_num

/-- The word 0xBD000000 denotes the real -1/32. -/
theorem ofBits_negInv32 : Ideal.ofBits .f32 0xBD000000#32 = ((-(1 / 32) : ℝ) : EReal) := by
  simp [Ideal.ofBits, Ideal.ieee, -EReal.coe_mul]; norm_num

/-- The word 0x45800000 denotes the real 4096. -/
theorem ofBits_4096 : Ideal.ofBits .f32 0x45800000#32 = ((4096 : ℝ) : EReal) := by
  simp [Ideal.ofBits, Ideal.ieee, -EReal.coe_mul]; norm_num

/-- The word 0x4B800000 denotes the real 16777216 = 2^24. -/
theorem ofBits_16777216 : Ideal.ofBits .f32 0x4B800000#32 = ((16777216 : ℝ) : EReal) := by
  simp [Ideal.ofBits, Ideal.ieee, -EReal.coe_mul]; norm_num

/-- Negating and then dividing by 32 is multiplying by -1/32, for every extended real a:
    -a / 32 = (-a) · (1/32) = -(a · (1/32)) = a · (-(1/32)). -/
theorem div_neg_32 (a : EReal) :
    Ideal.div (-a) (Ideal.ofBits .f32 0x42000000#32) = a * Cert.Mmd.negInvSigma := by
  rw [ofBits_32, Ideal.div_coe (by norm_num : (32 : ℝ) ≠ 0), Cert.Mmd.negInvSigma, ofBits_negInv32,
    EReal.neg_mul, EReal.coe_neg, mul_neg]

/-- The two divisors are one number: 16777216 = 4096 · 4096. -/
theorem count_eq : Ideal.ofBits .f32 0x4B800000#32 = Cert.Mmd.count := by
  rw [Cert.Mmd.count, ofBits_4096, ofBits_16777216, ← EReal.coe_mul]; norm_num

/-! ## The Gram stage of each pair

    At the entry (n, m) the reference has 0 + Σ_d x(n,d)² for the row norm of the left array, the same
    for row m of the right array, Σ_d x(n,d) · y(m,d) for the cross term, and from them
    exp (-(norm + norm - 2 · cross) / 32): the Gaussian kernel of the two rows. -/

/-- The Gram stage of the pair (x, x) is the Gaussian kernel of rows n and m of x. -/
theorem gram_xx (x0 : Cert.Mmd.Mat) (n m : Fin 4096) :
    val_main_v16 (F := Ideal) x0 (ix2 n m) = Cert.Mmd.rbf x0 x0 n m := by
  rw [val_main_v16_apply, val_main_v15_apply, val_main_v13_apply, val_main_v12_apply, val_main_v9_apply,
    val_main_v7_apply, val_main_v5_apply, val_main_v1_apply, val_main_v8_apply, val_main_v6_apply,
    val_main_v3_apply, val_main_v11_apply, val_main_v10_apply, val_main_v4_apply, val_main_v14_apply]
  simp only [val_main_v0_apply, val_main_v2_apply, val_main_cst_apply, val_main_cst_0_apply,
    val_main_cst_1_apply, val_main_cst_2_apply, Ideal.ofBits_def, Ideal.mulf_def, Ideal.addf_def,
    Ideal.subf_def, Ideal.hostNegf_def, Ideal.negf_def, Ideal.hostDivf_def, Ideal.hostUnary_exp_def,
    Ideal.ofBits_zero_f32, zero_add]
  have e1 : ∀ k : Fin 1024, idx_main_v1 (idx_main_v5 (idx_main_v7 (ix2 n m))) k = ix2 n k := fun k =>
    funext fun a => by match a with | ⟨0, _⟩ => rfl | ⟨1, _⟩ => rfl
  have e2 : ∀ k : Fin 1024, idx_main_v3 (idx_main_v6 (idx_main_v8 (ix2 n m))) k = ix2 m k := fun k =>
    funext fun a => by match a with | ⟨0, _⟩ => rfl | ⟨1, _⟩ => rfl
  have e3 : ∀ k : Fin 1024, lidx_main_v4 (ix2 n m) k = ix2 n k := fun k =>
    funext fun a => by match a with | ⟨0, _⟩ => rfl | ⟨1, _⟩ => rfl
  have e4 : ∀ k : Fin 1024, ridx_main_v4 (ix2 n m) k = ix2 m k := fun k =>
    funext fun a => by match a with | ⟨0, _⟩ => rfl | ⟨1, _⟩ => rfl
  simp only [e1, e2, e3, e4]
  rw [div_neg_32]
  rfl

/-- The Gram stage of the pair (y, y) is the Gaussian kernel of rows n and m of y. -/
theorem gram_yy (x1 : Cert.Mmd.Mat) (n m : Fin 4096) :
    val_main_v35 (F := Ideal) x1 (ix2 n m) = Cert.Mmd.rbf x1 x1 n m := by
  rw [val_main_v35_apply, val_main_v34_apply, val_main_v32_apply, val_main_v31_apply, val_main_v28_apply,
    val_main_v26_apply, val_main_v24_apply, val_main_v20_apply, val_main_v27_apply, val_main_v25_apply,
    val_main_v22_apply, val_main_v30_apply, val_main_v29_apply, val_main_v23_apply, val_main_v33_apply]
  simp only [val_main_v19_apply, val_main_v21_apply, val_main_cst_5_apply, val_main_cst_6_apply,
    val_main_cst_7_apply, val_main_cst_8_apply, Ideal.ofBits_def, Ideal.mulf_def, Ideal.addf_def,
    Ideal.subf_def, Ideal.hostNegf_def, Ideal.negf_def, Ideal.hostDivf_def, Ideal.hostUnary_exp_def,
    Ideal.ofBits_zero_f32, zero_add]
  have e1 : ∀ k : Fin 1024, idx_main_v20 (idx_main_v24 (idx_main_v26 (ix2 n m))) k = ix2 n k := fun k =>
    funext fun a => by match a with | ⟨0, _⟩ => rfl | ⟨1, _⟩ => rfl
  have e2 : ∀ k : Fin 1024, idx_main_v22 (idx_main_v25 (idx_main_v27 (ix2 n m))) k = ix2 m k := fun k =>
    funext fun a => by match a with | ⟨0, _⟩ => rfl | ⟨1, _⟩ => rfl
  have e3 : ∀ k : Fin 1024, lidx_main_v23 (ix2 n m) k = ix2 n k := fun k =>
    funext fun a => by match a with | ⟨0, _⟩ => rfl | ⟨1, _⟩ => rfl
  have e4 : ∀ k : Fin 1024, ridx_main_v23 (ix2 n m) k = ix2 m k := fun k =>
    funext fun a => by match a with | ⟨0, _⟩ => rfl | ⟨1, _⟩ => rfl
  simp only [e1, e2, e3, e4]
  rw [div_neg_32]
  rfl

/-- The Gram stage of the pair (x, y) is the Gaussian kernel of row n of x and row m of y. -/
theorem gram_xy (x0 x1 : Cert.Mmd.Mat) (n m : Fin 4096) :
    val_main_v54 (F := Ideal) x0 x1 (ix2 n m) = Cert.Mmd.rbf x0 x1 n m := by
  rw [val_main_v54_apply, val_main_v53_apply, val_main_v51_apply, val_main_v50_apply, val_main_v47_apply,
    val_main_v45_apply, val_main_v43_apply, val_main_v39_apply, val_main_v46_apply, val_main_v44_apply,
    val_main_v41_apply, val_main_v49_apply, val_main_v48_apply, val_main_v42_apply, val_main_v52_apply]
  simp only [val_main_v38_apply, val_main_v40_apply, val_main_cst_11_apply, val_main_cst_12_apply,
    val_main_cst_13_apply, val_main_cst_14_apply, Ideal.ofBits_def, Ideal.mulf_def, Ideal.addf_def,
    Ideal.subf_def, Ideal.hostNegf_def, Ideal.negf_def, Ideal.hostDivf_def, Ideal.hostUnary_exp_def,
    Ideal.ofBits_zero_f32, zero_add]
  have e1 : ∀ k : Fin 1024, idx_main_v39 (idx_main_v43 (idx_main_v45 (ix2 n m))) k = ix2 n k := fun k =>
    funext fun a => by match a with | ⟨0, _⟩ => rfl | ⟨1, _⟩ => rfl
  have e2 : ∀ k : Fin 1024, idx_main_v41 (idx_main_v44 (idx_main_v46 (ix2 n m))) k = ix2 m k := fun k =>
    funext fun a => by match a with | ⟨0, _⟩ => rfl | ⟨1, _⟩ => rfl
  have e3 : ∀ k : Fin 1024, lidx_main_v42 (ix2 n m) k = ix2 n k := fun k =>
    funext fun a => by match a with | ⟨0, _⟩ => rfl | ⟨1, _⟩ => rfl
  have e4 : ∀ k : Fin 1024, ridx_main_v42 (ix2 n m) k = ix2 m k := fun k =>
    funext fun a => by match a with | ⟨0, _⟩ => rfl | ⟨1, _⟩ => rfl
  simp only [e1, e2, e3, e4]
  rw [div_neg_32]
  rfl

/-! ## The whole reference -/

/-- The reference's result is the statistic of the specification: each scalar stage is
    0 + Σ over all index pairs of the Gram stage, which is the double sum over rows n and m of the
    Gaussian kernel, divided by 16777216 = 4096 · 4096; and the result is
    (mean of k(x,x) + mean of k(y,y)) - 2 · mean of k(x,y). -/
theorem val_eq_mmd (x0 x1 : (⟨S4096x1024, .f32⟩ : BufTy).Contents (Elt Ideal)) :
    Cert.ReferenceIdeal.Read.val_main_v59 (F := Ideal) x0 x1 = fun _ => Cert.Mmd.mmd x0 x1 := by
  funext i
  rw [val_main_v59_apply, val_main_v57_apply, val_main_v18_apply, val_main_v17_apply, val_main_v37_apply,
    val_main_v36_apply, val_main_v58_apply, val_main_v56_apply, val_main_v55_apply]
  simp only [val_main_cst_3_apply, val_main_cst_4_apply, val_main_cst_9_apply, val_main_cst_10_apply,
    val_main_cst_15_apply, val_main_cst_16_apply, val_main_cst_17_apply, Ideal.ofBits_def, Ideal.mulf_def,
    Ideal.addf_def, Ideal.subf_def, Ideal.hostDivf_def, Ideal.ofBits_zero_f32, zero_add]
  rw [sum_idx2, sum_idx2, sum_idx2]
  simp only [gram_xx, gram_yy, gram_xy]
  rw [count_eq]
  rfl

end Cert.ReferenceIdeal.RefValue

end
-- ==== Proof.lean ====
/- The proof of the certificate's claim: the three frames, the (empty) idealization ledger, and the equivalence of
   the idealized kernel program and the idealized reference over the extended reals.

   The mathematics. Both programs compute the biased maximum-mean-discrepancy estimate with a Gaussian kernel of
   bandwidth 32 of two 4096 × 1024 arrays x, y: with k(a, b) = exp((|a|² + |b|² − 2⟨a, b⟩) · (−1/32)),
   mean k(x_n, x_m) + mean k(y_n, y_m) − 2 · mean k(x_n, y_m), each mean over 4096² pairs (Proof/Spec.lean).
   The kernel program runs three launches of one body on a 4 × 4 grid of 1024 × 1024 tiles: at each grid point
   the body adds the tile's sum of k to a one-element accumulator block that it zeroes at the first point; the block
   is written back once, after the last point. The sixteen tiles cover the 4096 × 4096 square exactly once, and a
   sum over the extended reals may be regrouped freely, so the accumulator ends at the sum of the whole Gram matrix
   (Proof/KIValue0.lean and its two siblings, over Proof/TilePayload.lean and Proof/TileSum.lean); the host operations
   after each launch divide by 4096 · 4096 and the last ones combine the three means (Proof/KITail.lean). The
   reference forms the three Gram matrices whole, divides the negated squared distance by 32 where the kernel
   multiplies by −1/32, and divides the sums by 16777216: the same numbers (Proof/RefIsMmd.lean). No step needs
   the inputs to be finite.

   The frames. Each launch's body is run in its two cases (the first grid point, every later one), the accumulator
   block's contents followed point by point (Proof/KIBody0.lean, Proof/KIRegion0.lean and siblings); launches 0 and 1
   hand ONE array to both input windows, so the array's full share is halved between the windows at entry and
   rejoined at exit (Proof/KIShare0.lean); the three launches and the host operations between them are chained into
   the run of the whole program (Proof/KISegs.lean). The word-level program is the same text read at the other
   instance (the K… modules). -/
import proofs.«169877_j27968827031704_1_alg».proof.Defs
import proofs.«169877_j27968827031704_1_alg».proof.Proof.Gen.Kernel
import proofs.«169877_j27968827031704_1_alg».proof.Proof.Gen.KernelIdeal
import proofs.«169877_j27968827031704_1_alg».proof.Proof.Gen.ReferenceIdeal
import proofs.«169877_j27968827031704_1_alg».proof.Proof.Gen.Pre_finite_inputs
import proofs.«169877_j27968827031704_1_alg».proof.Proof.Gen.ReferenceIdeal.Run
import proofs.«169877_j27968827031704_1_alg».proof.Proof.Gen.ReferenceIdeal.Read
import proofs.«169877_j27968827031704_1_alg».proof.Proof.KSegs
import proofs.«169877_j27968827031704_1_alg».proof.Proof.KISegs
import proofs.«169877_j27968827031704_1_alg».proof.Proof.KIValue
import proofs.«169877_j27968827031704_1_alg».proof.Proof.RefIsMmd

noncomputable section

namespace Cert.Proof

open Idealize.ShloMosaic Idealize.ShloMosaic.TcCoe Idealize.SL.Sem

/-- The word-level kernel program runs to the end and leaves its arguments unchanged. -/
theorem frame_kernel [Cert.Kernel.Facts] [Cert.Pre_finite_inputs.Facts] : Cert.frame_Kernel := fun m ρ _ =>
  (θ_run Cert.Kernel.defs _ _).mono (fun _ h c => (h c).2) (Cert.Kernel.Hand.run_main (F := Bits) m ρ)

/-- So does the idealized kernel program. -/
theorem frame_kernelIdeal [Cert.KernelIdeal.Facts] [Cert.Pre_finite_inputs.Facts] : Cert.frame_KernelIdeal := fun m ρ _ =>
  (θ_run Cert.KernelIdeal.defs _ _).mono (fun _ h c => (h c).2) (Cert.KernelIdeal.Hand.run_main (F := Ideal) m ρ)

/-- The reference has no launch: its run, with the result dropped. -/
theorem frame_referenceIdeal [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with the statistic of the argument arrays in their result buffer. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Cert.Mmd.mmd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.KernelIdeal.HandValue.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, Cert.ReferenceIdeal.RefValue.val_eq_mmd, (hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
